-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1024x1024 : Shape := ⟨2, ![1024, 1024]⟩
abbrev S1024 : Shape := ⟨1, ![1024]⟩
abbrev S1000x1024 : Shape := ⟨2, ![1000, 1024]⟩
abbrev S1000 : Shape := ⟨1, ![1000]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1000x1024 : S_.BroadcastsInDim S1000x1024 (![] : Fin 0 → Fin S1000x1024.rank)
  reducesTo_S1000x1024_S_d0_1 : S1000x1024.ReducesTo [0, 1] S_
  bcast_S_S1000 : S_.BroadcastsInDim S1000 (![] : Fin 0 → Fin S1000.rank)
  reducesTo_S1000_S_d0 : S1000.ReducesTo [0] S_

variable [Facts]

def fn_part1 {F : FTy → Type} [FloatOps F] (main_arg4 : FVec F S1000 .f32) (main_v13 : IVec S_ 1) (main_v16 : IVec S1000x1024 1) : IVec S_ 1 :=
  let main_c_5 : IVec S_ 1 := constantI S_ 1 1#1
  let main_v17 : IVec S_ 1 := (fun x v => Host.reduce IntOp.andi x v reducesTo_S1000x1024_S_d0_1 h_S_) main_v16 main_c_5
  let main_v18 : IVec S_ 1 := andi main_v13 main_v17
  let main_v19 : FVec F S1000 .f32 := Host.absf main_arg4
  let main_cst_6 : FVec F S_ .f32 := constant S_ .f32 0x7F800000#32
  let main_v20 : FVec F S1000 .f32 := broadcastInDim S1000 ![] bcast_S_S1000 main_cst_6
  let main_v21 : IVec S1000 1 := cmpf .olt main_v19 main_v20
  let main_c_7 : IVec S_ 1 := constantI S_ 1 1#1
  let main_v22 : IVec S_ 1 := (fun x v => Host.reduce IntOp.andi x v reducesTo_S1000_S_d0 h_S_) main_v21 main_c_7
  let main_v23 : IVec S_ 1 := andi main_v18 main_v22
  main_v23

def fn {F : FTy → Type} [FloatOps F] (main_arg0 : FVec F S2x2048x1024 .f32) (main_arg1 : FVec F S1024x1024 .f32) (main_arg2 : FVec F S1024 .f32) (main_arg3 : FVec F S1000x1024 .f32) (main_arg4 : FVec F S1000 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1000x1024 .f32 := Host.absf main_arg3
  let main_cst_4 : FVec F S_ .f32 := constant S_ .f32 0x7F800000#32
  let main_v15 : FVec F S1000x1024 .f32 := broadcastInDim S1000x1024 ![] bcast_S_S1000x1024 main_cst_4
  let main_v16 : IVec S1000x1024 1 := cmpf .olt main_v14 main_v15
  fn_part1 (F := F) main_arg4 main_v13 main_v16
-- ==== Kernel.lean ====
abbrev S2x2048x1024 : Shape := ⟨3, ![2, 2048, 1024]⟩
abbrev S1024x1024 : Shape := ⟨2, ![1024, 1024]⟩
abbrev S1024 : Shape := ⟨1, ![1024]⟩
abbrev S1000x1024 : Shape := ⟨2, ![1000, 1024]⟩
abbrev S1000 : Shape := ⟨1, ![1000]⟩
abbrev S4096x1024 : Shape := ⟨2, ![4096, 1024]⟩
abbrev S1x1024 : Shape := ⟨2, ![1, 1024]⟩
abbrev S2048x1024 : Shape := ⟨2, ![2048, 1024]⟩
abbrev S2x2048x16x64 : Shape := ⟨4, ![2, 2048, 16, 64]⟩
abbrev S2x16x2048x64 : Shape := ⟨4, ![2, 16, 2048, 64]⟩
abbrev S32x2048x64 : Shape := ⟨3, ![32, 2048, 64]⟩
abbrev S1x2048x64 : Shape := ⟨3, ![1, 2048, 64]⟩
abbrev S2048x64 : Shape := ⟨2, ![2048, 64]⟩
abbrev S64x64 : Shape := ⟨2, ![64, 64]⟩
abbrev S1024x1000 : Shape := ⟨2, ![1024, 1000]⟩
abbrev S_ : Shape := ⟨0, ![]⟩
abbrev S4096x1000 : Shape := ⟨2, ![4096, 1000]⟩
abbrev S2x2048x1000 : Shape := ⟨3, ![2, 2048, 1000]⟩

abbrev nBuf : Space → Nat
  | .hbm => 32
  | .vmem => 16
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S1024, .f32⟩
  | .hbm, ⟨3, _⟩ => ⟨S1000x1024, .f32⟩
  | .hbm, ⟨4, _⟩ => ⟨S1000, .f32⟩
  | .hbm, ⟨5, _⟩ => ⟨S4096x1024, .f32⟩
  | .hbm, ⟨6, _⟩ => ⟨S4096x1024, .bf16⟩
  | .hbm, ⟨7, _⟩ => ⟨S1024x1024, .f32⟩
  | .hbm, ⟨8, _⟩ => ⟨S1024x1024, .bf16⟩
  | .hbm, ⟨9, _⟩ => ⟨S1x1024, .f32⟩
  | .hbm, ⟨10, _⟩ => ⟨S4096x1024, .f32⟩
  | .hbm, ⟨11, _⟩ => ⟨S2x2048x16x64, .f32⟩
  | .hbm, ⟨12, _⟩ => ⟨S2x16x2048x64, .f32⟩
  | .hbm, ⟨13, _⟩ => ⟨S32x2048x64, .f32⟩
  | .hbm, ⟨14, _⟩ => ⟨S32x2048x64, .bf16⟩
  | .hbm, ⟨15, _⟩ => ⟨S32x2048x64, .f32⟩
  | .hbm, ⟨16, _⟩ => ⟨S2x16x2048x64, .f32⟩
  | .hbm, ⟨17, _⟩ => ⟨S2x2048x16x64, .f32⟩
  | .hbm, ⟨18, _⟩ => ⟨S4096x1024, .f32⟩
  | .hbm, ⟨19, _⟩ => ⟨S4096x1024, .bf16⟩
  | .hbm, ⟨20, _⟩ => ⟨S1024x1000, .f32⟩
  | .hbm, ⟨21, _⟩ => ⟨S_, .i32⟩
  | .hbm, ⟨22, _⟩ => ⟨S_, .f32⟩
  | .hbm, ⟨23, _⟩ => ⟨S1024x1024, .f32⟩
  | .hbm, ⟨24, _⟩ => ⟨S1024x1024, .bf16⟩
  | .hbm, ⟨25, _⟩ => ⟨S_, .i32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S4096x1024, .f32⟩
  | .hbm, ⟨30, _⟩ => ⟨S4096x1000, .f32⟩
  | .hbm, ⟨31, _⟩ => ⟨S2x2048x1000, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1x1024, .f32⟩
  | .local _ .vmem, ⟨4, _⟩ => ⟨S2048x1024, .f32⟩
  | .local _ .vmem, ⟨5, _⟩ => ⟨S2048x1024, .f32⟩
  | .local _ .vmem, ⟨6, _⟩ => ⟨S1x2048x64, .bf16⟩
  | .local _ .vmem, ⟨7, _⟩ => ⟨S1x2048x64, .bf16⟩
  | .local _ .vmem, ⟨8, _⟩ => ⟨S1x2048x64, .f32⟩
  | .local _ .vmem, ⟨9, _⟩ => ⟨S1x2048x64, .f32⟩
  | .local _ .vmem, ⟨10, _⟩ => ⟨S2048x1024, .bf16⟩
  | .local _ .vmem, ⟨11, _⟩ => ⟨S2048x1024, .bf16⟩
  | .local _ .vmem, ⟨12, _⟩ => ⟨S1024x1024, .bf16⟩
  | .local _ .vmem, ⟨13, _⟩ => ⟨S1x1024, .f32⟩
  | .local _ .vmem, ⟨14, _⟩ => ⟨S2048x1024, .f32⟩
  | .local _ .vmem, ⟨15, _⟩ => ⟨S2048x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c : Ref sig .tc := ⟨.hbm, 21, rfl⟩
abbrev main_call0_v0 : Ref sig .tc := ⟨.hbm, 22, rfl⟩
abbrev main_v16 : Ref sig .tc := ⟨.hbm, 23, rfl⟩
abbrev main_v17 : Ref sig .tc := ⟨.hbm, 24, rfl⟩
abbrev main_c_0 : Ref sig .tc := ⟨.hbm, 25, rfl⟩
abbrev main_call1_v0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x2048x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x2048x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![2], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2048x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S2x2048x1024_S4096x1024 : S2x2048x1024.ShapeCasts S4096x1024
  bitsLt_bf16_f32 : FTy.bits .bf16 < FTy.bits .f32
  transposes_S1024x1024_S1024x1024_1_0 : S1024x1024.Transposes [1, 0] S1024x1024
  shapeCasts_S1024_S1x1024 : S1024.ShapeCasts S1x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  shapeCasts_S4096x1024_S2x2048x16x64 : S4096x1024.ShapeCasts S2x2048x16x64
  transposes_S2x2048x16x64_S2x16x2048x64_0_2_1_3 : S2x2048x16x64.Transposes [0, 2, 1, 3] S2x16x2048x64
  shapeCasts_S2x16x2048x64_S32x2048x64 : S2x16x2048x64.ShapeCasts S32x2048x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  shapeCasts_S2048x64_S1x2048x64 : S2048x64.ShapeCasts S1x2048x64
  shapeCasts_S32x2048x64_S2x16x2048x64 : S32x2048x64.ShapeCasts S2x16x2048x64
  transposes_S2x16x2048x64_S2x2048x16x64_0_2_1_3 : S2x16x2048x64.Transposes [0, 2, 1, 3] S2x2048x16x64
  shapeCasts_S2x2048x16x64_S4096x1024 : S2x2048x16x64.ShapeCasts S4096x1024
  transposes_S1000x1024_S1024x1000_1_0 : S1000x1024.Transposes [1, 0] S1024x1000
  pads_S1024x1000_S1024x1024_000_0240 : S1024x1000.Pads (![0, 0] : Fin 2 → Nat) ![0, 24] ![0, 0] S1024x1024
  h_S_ : 0 < S_.numel
  pads_S1000_S1024_0240 : S1000.Pads (![0] : Fin 1 → Nat) ![24] ![0] S1024
  slices_S4096x1024_S4096x1000_0_0 : S4096x1024.Slices ![0, 0] S4096x1000
  shapeCasts_S4096x1000_S2x2048x1000 : S4096x1000.ShapeCasts S2x2048x1000
  dot_S2048x1024_S1024x1024_S2048x1024_1_0_0_1_n_n_wf : DotDims.WF S2048x1024 S1024x1024 S2048x1024 [1] [0] [0] [1] [] []
  dot_S2048x64_S2048x64_S64x64_0_0_1_1_n_n_wf : DotDims.WF S2048x64 S2048x64 S64x64 [0] [0] [1] [1] [] []
  dot_S2048x64_S64x64_S2048x64_1_0_0_1_n_n_wf : DotDims.WF S2048x64 S64x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S4096x1024.size a
  hwx0_0 : ∀ i : grid0.Coords, EltTy.bits .bf16 = 32 ∨ (Rect.block (s := S4096x1024) S2048x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S4096x1024.size a
  hwx0_3 : ∀ i : grid0.Coords, EltTy.bits .f32 = 32 ∨ (Rect.block (s := S4096x1024) S2048x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048x64.size a ≤ S32x2048x64.size a
  hwx1_0 : ∀ i : grid1.Coords, EltTy.bits .bf16 = 32 ∨ (Rect.block (s := S32x2048x64) S1x2048x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x64.size a ≤ S32x2048x64.size a
  hwx1_1 : ∀ i : grid1.Coords, EltTy.bits .f32 = 32 ∨ (Rect.block (s := S32x2048x64) S1x2048x64.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x1024.size a ≤ S4096x1024.size a
  hwx2_0 : ∀ i : grid2.Coords, EltTy.bits .bf16 = 32 ∨ (Rect.block (s := S4096x1024) S2048x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x1024.size a ≤ S4096x1024.size a
  hwx2_3 : ∀ i : grid2.Coords, EltTy.bits .f32 = 32 ∨ (Rect.block (s := S4096x1024) S2048x1024.size (cc2_transform_3 i) (hinb2_3 i)).WholeWords (EltTy.packing .f32)

variable [Facts₀]

def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf
def dot_S2048x64_S2048x64_S64x64_0_0_1_1_n_n : DotDims S2048x64 S2048x64 S64x64 where
  lhsContracting := [0]
  rhsContracting := [0]
  lhsNonContracting := [1]
  rhsNonContracting := [1]
  lhsBatch := []
  rhsBatch := []
  wf := dot_S2048x64_S2048x64_S64x64_0_0_1_1_n_n_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf

abbrev win0_0 : Pipeline.Window sig grid0 :=
  Pipeline.Window.ofSpec (Memref.whole main_v1) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v9) S1x2048x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S1x2048x64.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v14) S2048x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v19) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v20) S2048x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S2x2048x1024 : Shape := ⟨3, ![2, 2048, 1024]⟩
abbrev S1024x1024 : Shape := ⟨2, ![1024, 1024]⟩
abbrev S1024 : Shape := ⟨1, ![1024]⟩
abbrev S1000x1024 : Shape := ⟨2, ![1000, 1024]⟩
abbrev S1000 : Shape := ⟨1, ![1000]⟩
abbrev S1x1x1024 : Shape := ⟨3, ![1, 1, 1024]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x2048x1000 : Shape := ⟨3, ![2, 2048, 1000]⟩
abbrev S1x1x1000 : Shape := ⟨3, ![1, 1, 1000]⟩

abbrev nBuf : Space → Nat
  | .hbm => 22
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S1024, .f32⟩
  | .hbm, ⟨3, _⟩ => ⟨S1000x1024, .f32⟩
  | .hbm, ⟨4, _⟩ => ⟨S1000, .f32⟩
  | .hbm, ⟨5, _⟩ => ⟨S2x2048x1024, .f32⟩
  | .hbm, ⟨6, _⟩ => ⟨S1x1x1024, .f32⟩
  | .hbm, ⟨7, _⟩ => ⟨S2x2048x1024, .f32⟩
  | .hbm, ⟨8, _⟩ => ⟨S2x2048x1024, .f32⟩
  | .hbm, ⟨9, _⟩ => ⟨S2x2048x16x64, .f32⟩
  | .hbm, ⟨10, _⟩ => ⟨S2x16x2048x64, .f32⟩
  | .hbm, ⟨11, _⟩ => ⟨S2x16x2048x2048, .f32⟩
  | .hbm, ⟨12, _⟩ => ⟨S_, .f32⟩
  | .hbm, ⟨13, _⟩ => ⟨S2x16x2048x2048, .f32⟩
  | .hbm, ⟨14, _⟩ => ⟨S2x16x2048x2048, .f32⟩
  | .hbm, ⟨15, _⟩ => ⟨S2x16x2048x64, .f32⟩
  | .hbm, ⟨16, _⟩ => ⟨S2x2048x16x64, .f32⟩
  | .hbm, ⟨17, _⟩ => ⟨S2x2048x1024, .f32⟩
  | .hbm, ⟨18, _⟩ => ⟨S2x2048x1000, .f32⟩
  | .hbm, ⟨19, _⟩ => ⟨S1x1x1000, .f32⟩
  | .hbm, ⟨20, _⟩ => ⟨S2x2048x1000, .f32⟩
  | .hbm, ⟨21, _⟩ => ⟨S2x2048x1000, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  bcast_S1000_S1x1x1000_2 : S1000.BroadcastsInDim S1x1x1000 (![2] : Fin 1 → Fin S1x1x1000.rank)
  bcast_S1x1x1000_S2x2048x1000_0_1_2 : S1x1x1000.BroadcastsInDim S2x2048x1000 (![0, 1, 2] : Fin 3 → Fin S2x2048x1000.rank)
  dot_S2x2048x1024_S1024x1024_S2x2048x1024_2_1_01_0_n_n_wf : DotDims.WF S2x2048x1024 S1024x1024 S2x2048x1024 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]
  dot_S2x2048x1024_S1000x1024_S2x2048x1000_2_1_01_0_n_n_wf : DotDims.WF S2x2048x1024 S1000x1024 S2x2048x1000 [2] [1] [0, 1] [0] [] []

variable [Facts₀]

def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf
def dot_S2x2048x1024_S1000x1024_S2x2048x1000_2_1_01_0_n_n : DotDims S2x2048x1024 S1000x1024 S2x2048x1000 where
  lhsContracting := [2]
  rhsContracting := [1]
  lhsNonContracting := [0, 1]
  rhsNonContracting := [0]
  lhsBatch := []
  rhsBatch := []
  wf := dot_S2x2048x1024_S1000x1024_S2x2048x1000_2_1_01_0_n_n_wf

class Facts : Prop extends Facts₀ where

variable [Facts]
-- ==== Proof.Spec.lean ====
/-
  Linear (softmax-free) attention between two dense layers, as one function of the five argument arrays.

  A dense layer sends a row x(s, ·) to Σ_l x(s, l)·W(g, l) + b(g). The first layer's 1024 outputs are read as 16 heads
  of 64 lanes: column h·64 + d is lane d of head h. Within one batch entry and one head the projected rows form a
  2048 × 64 matrix P, and the attention value at (q, d) is the sum over the keys k of the scaled score
  (Σ_d₁ P(q, d₁)·P(k, d₁))·sc times P(k, d). Because nothing non-linear stands between the two products, the same number
  is reached by first forming the 64 × 64 matrix PᵀP and then multiplying P into it:
  (Σ_d₁ P(q, d₁)·(Σ_s P(s, d₁)·P(s, d)))·sc. These are the two associations `attnR` and `attnK` below. The heads are
  then laid side by side again (column f belongs to head f / 64, lane f % 64) and the second dense layer is applied.

  `spec` is the whole map with the association left as a parameter; on the extended reals the two associations are
  different terms, and they agree wherever every entry that enters them is a real number.
-/
import Idealize.ShloMosaic.PureOps.Ideal.Laws

noncomputable section

namespace LinAttn

/-- Column `h·64 + d` of the 1024-wide embedding: lane `d` of head `h`. -/
def hd (h : Fin 16) (d : Fin 64) : Fin 1024 := ⟨h.val * 64 + d.val, by have := h.isLt; have := d.isLt; omega⟩

/-- The head a column of the embedding belongs to. -/
def headOf (f : Fin 1024) : Fin 16 := ⟨f.val / 64, by have := f.isLt; omega⟩

/-- The lane of its head a column of the embedding is. -/
def laneOf (f : Fin 1024) : Fin 64 := ⟨f.val % 64, Nat.mod_lt _ (by decide)⟩

/-- Row `b·2048 + s` of the 4096 flattened rows: row `s` of batch entry `b`. -/
def rowOf (b : Fin 2) (s : Fin 2048) : Fin 4096 := ⟨b.val * 2048 + s.val, by have := b.isLt; have := s.isLt; omega⟩

/-- Slice `b·16 + h` of the 32 batch-and-head slices: head `h` of batch entry `b`. -/
def bhOf (b : Fin 2) (h : Fin 16) : Fin 32 := ⟨b.val * 16 + h.val, by have := b.isLt; have := h.isLt; omega⟩

/-- Class `c` as a column of the class axis padded to 1024. -/
def c1024 (c : Fin 1000) : Fin 1024 := ⟨c.val, by have := c.isLt; omega⟩

/-- A dense layer at row `s`, output `g`: `Σ_l x(s, l)·W(g, l) + b(g)`. -/
def dense {M K N : ℕ} (x : Fin M → Fin K → EReal) (W : Fin N → Fin K → EReal) (b : Fin N → EReal)
    (s : Fin M) (g : Fin N) : EReal :=
  (∑ l : Fin K, x s l * W g l) + b g

/-- Attention without softmax, the small product first: `(Σ_d₁ P(q, d₁)·(Σ_s P(s, d₁)·P(s, d)))·sc`. -/
def attnK {S D : ℕ} (P : Fin S → Fin D → EReal) (sc : EReal) (q : Fin S) (d : Fin D) : EReal :=
  (∑ d₁ : Fin D, P q d₁ * ∑ s : Fin S, P s d₁ * P s d) * sc

/-- Attention without softmax, the scores first: `Σ_k ((Σ_d₁ P(q, d₁)·P(k, d₁))·sc)·P(k, d)`. -/
def attnR {S D : ℕ} (P : Fin S → Fin D → EReal) (sc : EReal) (q : Fin S) (d : Fin D) : EReal :=
  ∑ k : Fin S, ((∑ d₁ : Fin D, P q d₁ * P k d₁) * sc) * P k d

/-- One head's projected rows: row `s`, lane `d` of head `h` of the first dense layer's output. -/
def headRows (x : Fin 2048 → Fin 1024 → EReal) (Win : Fin 1024 → Fin 1024 → EReal) (bin : Fin 1024 → EReal)
    (h : Fin 16) (s : Fin 2048) (d : Fin 64) : EReal :=
  dense x Win bin s (hd h d)

/-- The whole map at batch entry `b`, row `s`, class `c`, with the association of the attention product a parameter. -/
def spec (attn : (Fin 2048 → Fin 64 → EReal) → EReal → Fin 2048 → Fin 64 → EReal)
    (x : Fin 2 → Fin 2048 → Fin 1024 → EReal) (Win : Fin 1024 → Fin 1024 → EReal) (bin : Fin 1024 → EReal)
    (Wout : Fin 1000 → Fin 1024 → EReal) (bout : Fin 1000 → EReal) (sc : EReal)
    (b : Fin 2) (s : Fin 2048) (c : Fin 1000) : EReal :=
  dense (fun s' f => attn (headRows (x b) Win bin (headOf f)) sc s' (laneOf f)) Wout bout s c

end LinAttn

end
-- ==== Proof.LibDenseLayer.lean ====
/-
  A dense layer read at an index, at the ideal values.

  The product of an m×k matrix A with a k×n matrix B has, at (r, h), the entry Σ_l A(r, l)·B(l, h). At the ideal
  values, where no rounding and no order of summation is left, both the kernel's product into a zero accumulator and
  the host's product read exactly that sum. The four coordinate lemmas say where each operand is read: the contracted
  axis takes the contraction's one coordinate, the kept axis the matching coordinate of the result.

  The bias of the layer is a vector of n entries laid out as one row and repeated down the m rows: at (p, c) it reads
  the vector's entry c, whichever of the two spellings (a cast then a broadcast; two broadcasts in dimensions) wrote it.

  ELU is x where x > 0 and eˣ − 1 elsewhere. One spelling takes eˣ − 1 of x itself; the other multiplies by one the
  value e^y − 1 at y = 0 where x > 0, y = x elsewhere. On the branch that is read (x ≤ 0) y is x, so the two agree on
  every extended real.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost

noncomputable section

namespace Idealize.ShloMosaic.DenseLayer

open Idealize.ShloMosaic Idealize.ShloMosaic.ValueIdx

/-! ## The product of an m×k matrix with a k×n matrix -/

section Product
variable {m k n : ℕ}

/-- The dimension numbers `[1] × [0]`, kept axes `[0]` and `[1]`, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left operand's kept axis reads the result's first coordinate. -/
theorem lhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 0).val = (j 0).val := by
  unfold DotDims.lhsIdx
  rw [dif_neg (show ¬(0 : Fin 2) ∈ (dims w).lhsBatch from List.not_mem_nil),
    dif_pos (show (0 : Fin 2) ∈ (dims w).lhsNonContracting from List.mem_singleton.mpr rfl)]
  rfl

/-- The left operand's contracted axis reads the contraction's coordinate. -/
theorem lhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 1).val = (q ⟨0, Nat.one_pos⟩).val :=
  (dims w).lhsIdx_val_of_single rfl j q

/-- The right operand's contracted axis reads the contraction's coordinate. -/
theorem rhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 0).val = (q ⟨0, Nat.one_pos⟩).val :=
  (dims w).rhsIdx_val_of_single rfl j q

/-- The right operand's kept axis reads the result's second coordinate. -/
theorem rhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 1).val = (j 1).val := by
  unfold DotDims.rhsIdx
  rw [dif_neg (show ¬(1 : Fin 2) ∈ (dims w).rhsBatch from List.not_mem_nil),
    dif_pos (show (1 : Fin 2) ∈ (dims w).rhsNonContracting from List.mem_singleton.mpr rfl)]
  rfl

/-- The contraction's sum, re-indexed by the contracted coordinate: the left operand is read along row `r`, the right
    one down column `h`. -/
theorem sum_contr (w : DotDims.WF ⟨2, ![m, k]⟩ ⟨2, ![k, n]⟩ ⟨2, ![m, n]⟩ [1] [0] [0] [1] [] [])
    (A : (⟨2, ![m, k]⟩ : Shape).Idx → EReal) (B : (⟨2, ![k, n]⟩ : Shape).Idx → EReal) (r : Fin m) (h : Fin n) :
    ∑ q : (dims w).contr.Idx, A ((dims w).lhsIdx (ix2 r h) q) * B ((dims w).rhsIdx (ix2 r h) q)
      = ∑ l : Fin k, A (ix2 r l) * B (ix2 l h) := by
  rw [← Equiv.sum_comp (contrEquiv1 (dims w) k rfl rfl).symm]
  refine Finset.sum_congr rfl fun l _ => ?_
  have c2 := contrEquiv1_symm_val (dims w) k rfl rfl l
  have l2 : (dims w).lhsIdx (ix2 r h) ((contrEquiv1 (dims w) k rfl rfl).symm l) = ix2 r l := by
    funext ax; apply Fin.ext
    match ax with
    | ⟨0, _⟩ => exact lhs_0 w _ _
    | ⟨1, _⟩ => exact (lhs_1 w _ _).trans c2
  have r2 : (dims w).rhsIdx (ix2 r h) ((contrEquiv1 (dims w) k rfl rfl).symm l) = ix2 l h := by
    funext ax; apply Fin.ext
    match ax with
    | ⟨0, _⟩ => exact (rhs_0 w _ _).trans c2
    | ⟨1, _⟩ => exact rhs_1 w _ _
  rw [l2, r2]

/-- A kernel's product of an m×k matrix with a k×n matrix into the zero accumulator, read at `(r, h)`. -/
theorem matmul_rows_apply {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (h : Fin n) :
    FloatOps.matmul (⟨[1], [0], [0], [1], [], [], w⟩ : DotDims _ _ _) prec A B
        (constant ⟨2, ![m, n]⟩ .f32 0x00000000#32) (ix2 r h)
      = ∑ l : Fin k, A (ix2 r l) * B (ix2 l h) := by
  rw [Ideal.matmul_constant_zero_apply]
  exact sum_contr w A B r h

/-- The host's product of an m×k matrix with a k×n matrix, read at `(r, h)`. -/
theorem dotGeneral_rows_apply {φ₁ φ₂ : FTy}
    (w : DotDims.WF ⟨2, ![m, k]⟩ ⟨2, ![k, n]⟩ ⟨2, ![m, n]⟩ [1] [0] [0] [1] [] [])
    (prec : Option ContractPrecision) (sched : HostSchedule) (A : FVec Ideal ⟨2, ![m, k]⟩ φ₁) (B : FVec Ideal ⟨2, ![k, n]⟩ φ₂)
    (r : Fin m) (h : Fin n) :
    FloatOps.dotGeneral (⟨[1], [0], [0], [1], [], [], w⟩ : DotDims _ _ _) prec sched A B (ix2 r h)
      = ∑ l : Fin k, A (ix2 r l) * B (ix2 l h) := by
  rw [Ideal.dotGeneral_apply]
  exact sum_contr w A B r h

end Product

/-! ## The bias row -/

section Bias
variable {α : Type} {a b : ℕ}

/-- A vector `[b]` cast to one row `[1, b]` and broadcast down `a` rows reads, at `(p, c)`, the vector at `c`. -/
theorem bias_cast_apply (v : (⟨1, ![b]⟩ : Shape).Idx → α) (h1 : (⟨1, ![b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ v h1) hb (ix2 p c) = v (ix1 c) := by
  rw [broadcastTo_1b_ab_apply, shapeCast_a_1a_apply]

/-- A vector `[b]` laid along axis 1 of a one-row matrix `[1, b]` reads, at `(u, c)`, the vector at `c`. -/
theorem broadcastInDim_vec_row_apply (h : (⟨1, ![b]⟩ : Shape).BroadcastsInDim ⟨2, ![1, b]⟩ ![1])
    (v : (⟨1, ![b]⟩ : Shape).Idx → α) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[b]` laid along axis 1 of a one-row matrix and that row repeated down `a` rows reads, at `(p, c)`,
    the vector at `c`. -/
theorem bias_inDim_apply (h1 : (⟨1, ![b]⟩ : Shape).BroadcastsInDim ⟨2, ![1, b]⟩ ![1])
    (h2 : (⟨2, ![1, b]⟩ : Shape).BroadcastsInDim ⟨2, ![a, b]⟩ ![0, 1])
    (v : (⟨1, ![b]⟩ : Shape).Idx → α) (p : Fin a) (c : Fin b) :
    broadcastInDim ⟨2, ![a, b]⟩ ![0, 1] h2 (broadcastInDim ⟨2, ![1, b]⟩ ![1] h1 v) (ix2 p c) = v (ix1 c) := by
  rw [broadcastInDim_oneRow_apply, broadcastInDim_vec_row_apply]

end Bias

/-! ## ELU on the extended reals -/

/-- ELU: `x` where `x > 0`, `eˣ − 1` elsewhere. -/
def elu (x : EReal) : EReal := Scalar.select (Ideal.cmp .ogt x 0) x (Ideal.exp x - 1)

/-- The spelling that multiplies by one the value `e^y − 1` at `y = 0` where `x > 0`, `y = x` elsewhere, is ELU. -/
theorem elu_guarded (x : EReal) :
    Scalar.select (Ideal.cmp .ogt x 0) x (1 * (Ideal.exp (Scalar.select (Ideal.cmp .ogt x 0) 0 x) - 1)) = elu x := by
  unfold elu
  by_cases hc : Ideal.cmp .ogt x 0 = 1#1
  · rw [hc, select_one, select_one]
  · rw [eq_zero_of_ne_one hc, select_zero, select_zero, select_zero, one_mul]

/-! ## The two spellings of ELU on arrays, read at an index -/

section Spellings
variable {s : Shape}

/-- The kernel's spelling, `x` where `x > 0` else `exp x − 1` over splat constants, read at an index. -/
theorem elu_kernel_apply (Y : FVec Ideal s .f32) (j : s.Idx) :
    select (cmpf .ogt Y (broadcast s (FloatOps.ofBits (F := Ideal) .f32 0x00000000#32))) Y
        (subf (exp Y) (broadcast s (FloatOps.ofBits (F := Ideal) .f32 0x3F800000#32))) j = elu (Y j) := by
  show Scalar.select (Ideal.cmp .ogt (Y j) (Ideal.ofBits .f32 0x00000000#32)) (Y j)
      (Ideal.exp (Y j) - Ideal.ofBits .f32 0x3F800000#32) = _
  rw [Ideal.ofBits_zero_f32, Ideal.ofBits_one_f32]
  rfl

/-- The host's spelling, `x` where `x > 0` else `1 · expm1 (0 where x > 0 else x)` over broadcast scalars, read at an
    index. -/
theorem elu_host_apply (hb : (⟨0, ![]⟩ : Shape).BroadcastsInDim s ![]) (Y : FVec Ideal s .f32) (j : s.Idx) :
    select (cmpf .ogt Y (broadcastInDim s ![] hb (constant (F := Ideal) ⟨0, ![]⟩ .f32 0x00000000#32))) Y
        (mulf (broadcastInDim s ![] hb (constant (F := Ideal) ⟨0, ![]⟩ .f32 0x3F800000#32))
          (Host.expm1 (select (cmpf .ogt Y (broadcastInDim s ![] hb (constant (F := Ideal) ⟨0, ![]⟩ .f32 0x00000000#32)))
            (broadcastInDim s ![] hb (id (constant (F := Ideal) ⟨0, ![]⟩ .f32 0x00000000#32))) Y))) j = elu (Y j) := by
  show Scalar.select (Ideal.cmp .ogt (Y j) (Ideal.ofBits .f32 0x00000000#32)) (Y j)
      (Ideal.ofBits .f32 0x3F800000#32 * (Ideal.exp (Scalar.select (Ideal.cmp .ogt (Y j) (Ideal.ofBits .f32 0x00000000#32))
        (Ideal.ofBits .f32 0x00000000#32) (Y j)) - 1)) = _
  rw [Ideal.ofBits_zero_f32, Ideal.ofBits_one_f32]
  exact elu_guarded (Y j)

end Spellings

end Idealize.ShloMosaic.DenseLayer

end
-- ==== Proof.KReg0.lean ====
/-
  The first dense layer's call. Each of its two grid points takes 2048 rows of the 4096 × 1024 input, the whole
  1024 × 1024 weight matrix and the one-row bias, and writes the 2048 rows of the product plus the bias row. The two
  blocks tile the output, so after the call the output array holds, at (r, g), Σ_l X(r, l)·Wt(l, g) + bias(0, g) of
  the arrays as the call found them.
-/
import proofs.«123691_j8297876815995_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«123691_j8297876815995_1_alg».proof.Proof.LibDenseLayer
set_option maxRecDepth 16384

noncomputable section

namespace Cert.KernelIdeal.KVal

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The call's arrays as it finds them, and its output array after it, by their literal types. -/
abbrev arrX0 (c : Dev nD) : FVec Ideal S4096x1024 .bf16 := V c main_v1
abbrev arrW0 (c : Dev nD) : FVec Ideal S1024x1024 .bf16 := V c main_v3
abbrev arrB0 (c : Dev nD) : FVec Ideal S1x1024 .f32 := V c main_v4
abbrev arrO0 (c : Dev nD) : FVec Ideal S4096x1024 .f32 := (dat0 (F := Ideal) V c).arrAt 3 cfg0.N

/-- The body's arithmetic at one entry: the product of the two blocks into a zero accumulator, plus the bias row. -/
private theorem pay_apply0 (x0 : Vec Ideal S2048x1024 .bf16) (x1 : Vec Ideal S1024x1024 .bf16) (x2 : Vec Ideal S1x1024 .f32)
    (p : Fin 2048) (g : Fin 1024) :
    k0_pay1 x0 x1 x2 (ix2 p g) = (∑ l : Fin 1024, x0 (ix2 p l) * x1 (ix2 l g)) + x2 (ix2 (0 : Fin 1) g) := by
  unfold k0_pay1
  rw [shapeCast_self, shapeCast_self, shapeCast_self]
  refine (addf_apply _ _ (ix2 p g)).trans ?_
  refine congrArg₂ (· + ·) ?_ ?_
  · exact DenseLayer.matmul_rows_apply dot_S2048x1024_S1024x1024_S2048x1024_1_0_0_1_n_n_wf none x0 x1 p g
  · exact broadcastTo_1b_ab_apply x2 broadcasts_S1x1024_S2048x1024 p g

/-- The offset of a whole-buffer access is zero on every axis. -/
private theorem hz0 : (![0, 0] : Fin 2 → Nat) = fun _ => 0 := funext fun a => by fin_cases a <;> rfl

/-- The dense layer of the arrays the call finds, entry by entry. -/
private def G0 (c : Dev nD) : FVec Ideal S4096x1024 .f32 := fun i =>
  (∑ l : Fin 1024, arrX0 V c (ix2 (⟨(i 0).val, (i 0).isLt⟩ : Fin 4096) l) * arrW0 V c (ix2 l (⟨(i 1).val, (i 1).isLt⟩ : Fin 1024)))
    + arrB0 V c (ix2 (0 : Fin 1) (⟨(i 1).val, (i 1).isLt⟩ : Fin 1024))

/-- The printed index maps, decided over the grid: the input's and the output's blocks are at block row t, the weights
    and the bias are whole at every point. -/
private theorem idx_facts0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = t.val
    ∧ win0_3.index t (1 : Fin 2) = 0 :=
  (by decide +kernel : ∀ t : Fin grid0.N, _)

/-- Point t's block of the input holds rows 2048·t … 2048·t + 2047 of the input array. -/
private theorem blkX0 (c : Dev nD) (t : Fin cfg0.N) (p : Fin 2048) (l : Fin 1024) (r : Fin 4096) (hr : r.val = t.val * 2048 + p.val) :
    (iblk0 V c 0 t : Vec Ideal S2048x1024 .bf16) (ix2 p l) = arrX0 V c (ix2 r l) := by
  obtain ⟨e0, e1, -⟩ := idx_facts0 t
  show arrX0 V c (((cfg0.win 0).blk t).view.emb (ix2 p l)) = arrX0 V c (ix2 r l)
  refine congrArg (arrX0 V c) ?_
  funext a; apply Fin.ext
  match a with
  | ⟨0, _⟩ => show win0_0.index t (0 : Fin 2) * 2048 + 1 * p.val = r.val; omega
  | ⟨1, _⟩ => show win0_0.index t (1 : Fin 2) * 1024 + 1 * l.val = l.val; omega

/-- Every point's block of the weights is the whole weight matrix. -/
private theorem blkW0 (c : Dev nD) (t : Fin cfg0.N) (l : Fin 1024) (g : Fin 1024) :
    (iblk0 V c 1 t : Vec Ideal S1024x1024 .bf16) (ix2 l g) = arrW0 V c (ix2 l g) := by
  obtain ⟨-, -, e0, e1, -⟩ := idx_facts0 t
  show arrW0 V c (((cfg0.win 1).blk t).view.emb (ix2 l g)) = arrW0 V c (ix2 l g)
  refine congrArg (arrW0 V c) ?_
  funext a; apply Fin.ext
  match a with
  | ⟨0, _⟩ => show win0_1.index t (0 : Fin 2) * 1024 + 1 * l.val = l.val; omega
  | ⟨1, _⟩ => show win0_1.index t (1 : Fin 2) * 1024 + 1 * g.val = g.val; omega

/-- Every point's block of the bias is the whole bias row. -/
private theorem blkB0 (c : Dev nD) (t : Fin cfg0.N) (g : Fin 1024) :
    (iblk0 V c 2 t : Vec Ideal S1x1024 .f32) (ix2 (0 : Fin 1) g) = arrB0 V c (ix2 (0 : Fin 1) g) := by
  obtain ⟨-, -, -, -, e0, e1, -⟩ := idx_facts0 t
  show arrB0 V c (((cfg0.win 2).blk t).view.emb (ix2 (0 : Fin 1) g)) = arrB0 V c (ix2 (0 : Fin 1) g)
  refine congrArg (arrB0 V c) ?_
  funext a; apply Fin.ext
  match a with
  | ⟨0, _⟩ => show win0_2.index t (0 : Fin 2) * 1 + 1 * (0 : Fin 1).val = (0 : Fin 1).val; omega
  | ⟨1, _⟩ => show win0_2.index t (1 : Fin 2) * 1024 + 1 * g.val = g.val; omega

/-- Where point t's output block sits in the output array: rows 2048·t … 2048·t + 2047, every column. -/
private theorem embO0 (t : Fin cfg0.N) (p : Fin 2048) (g : Fin 1024) :
    ((((cfg0.win 3).blk t).view.emb (ix2 p g)) 0).val = t.val * 2048 + p.val
      ∧ ((((cfg0.win 3).blk t).view.emb (ix2 p g)) 1).val = g.val := by
  obtain ⟨-, -, -, -, -, -, e0, e1⟩ := idx_facts0 t
  constructor
  · show win0_3.index t (0 : Fin 2) * 2048 + 1 * p.val = _; omega
  · show win0_3.index t (1 : Fin 2) * 1024 + 1 * g.val = _; omega

set_option maxHeartbeats 400000 in
/-- What point t writes back is its block of the dense layer of the arrays the call finds. -/
private theorem flushed_eq0 (c : Dev nD) (t : Fin cfg0.N) :
    (dat0 V c).flushed 3 t = ((cfg0.win 3).blk t).view.read (Elt Ideal) (G0 V c) := by
  show (cfg0.win 3).cut (grid0.coords t) ((dat0 V c).after 3 t) = _
  rw [after0_3]
  unfold out0_3
  rw [View.canon_unit_zero hz0]
  simp only [View.ld_unit_zero (S := S2048x1024) hz0, View.ld_unit_zero (S := S1024x1024) hz0, View.ld_unit_zero (S := S1x1024) hz0]
  funext y
  obtain ⟨p, g, rfl⟩ : ∃ (p : Fin 2048) (g : Fin 1024), y = ix2 p g := ⟨y 0, y 1, eq_ix2 y⟩
  show k0_pay1 (iblk0 V c 0 t) (iblk0 V c 1 t) (iblk0 V c 2 t) (ix2 p g) = G0 V c (((cfg0.win 3).blk t).view.emb (ix2 p g))
  refine (pay_apply0 (iblk0 V c 0 t) (iblk0 V c 1 t) (iblk0 V c 2 t) p g).trans ?_
  obtain ⟨h0, h1⟩ := embO0 t p g
  unfold G0
  refine congrArg₂ (· + ·) (Finset.sum_congr rfl fun l _ => congrArg₂ (· * ·) ?_ ?_) ?_
  · exact blkX0 V c t p l _ h0
  · exact (blkW0 V c t l g).trans (congrArg (fun z => arrW0 V c (ix2 l z)) (Fin.ext h1.symm))
  · exact (blkB0 V c t g).trans (congrArg (fun z => arrB0 V c (ix2 (0 : Fin 1) z)) (Fin.ext h1.symm))

/-- An index of the output array is in point t's block iff each coordinate is in the block's range on its axis. -/
private theorem mem_blk0 (t : Fin cfg0.N) (i : S4096x1024.Idx) :
    i ∈ ((cfg0.win 3).blk t).view.set ↔ ∀ a : Fin 2, win0_3.index t a * S2048x1024.size a ≤ (i a).val ∧ (i a).val < win0_3.index t a * S2048x1024.size a + S2048x1024.size a := by
  show i ∈ ((View.whole main_v5).slice (win0_3.rect t)).set ↔ _
  rw [View.set_slice_whole, Rect.mem_set_unit]
  exact Iff.rfl

/-- Every block row of the output is some point's. -/
private theorem idx_onto0 : ∀ q : Fin 2, ∃ t : Fin cfg0.N, win0_3.index t = ![q.val, 0] :=
  (by decide +kernel : ∀ q : Fin 2, ∃ t : Fin grid0.N, win0_3.index t = ![q.val, 0])

/-- The two blocks tile the output: row r is in block r / 2048. -/
private theorem cover0 (i : S4096x1024.Idx) :
    ∃ t : Fin cfg0.N, (cfg0.win 3).flush t = true ∧ i ∈ ((cfg0.win 3).blk t).view.set := by
  have hi0 : (i 0).val < 4096 := (i 0).isLt
  have hi1 : (i 1).val < 1024 := (i 1).isLt
  obtain ⟨t, ht⟩ := idx_onto0 ⟨(i 0).val / 2048, by omega⟩
  have q0 : win0_3.index t (0 : Fin 2) = (i 0).val / 2048 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 1024 ≤ (i 1).val ∧ (i 1).val < win0_3.index t (1 : Fin 2) * 1024 + 1024; omega

/-- The output array after the call: at (r, g) the product's entry plus the bias row's, of the arrays as the call found them. -/
theorem final0 (c : Dev nD) (r : Fin 4096) (g : Fin 1024) :
    arrO0 V c (ix2 r g)
      = (∑ l : Fin 1024, arrX0 V c (ix2 r l) * arrW0 V c (ix2 l g)) + arrB0 V c (ix2 (0 : Fin 1) g) :=
  congrFun (Dat.arrAt_eq_of_cover (dat0 V c) 3 (G0 V c) (fun t _ => flushed_eq0 V c t) cover0) (ix2 r g)

end Cert.KernelIdeal.KVal

end
-- ==== Proof.LibMatmulColsByCols.lean ====
/-
  The matrix product that contracts the FIRST axis of both operands, read at an index, at the ideal values.

  A k×m matrix A and a k×n matrix B, both contracted along their rows' axis, give the m×n matrix whose entry (r, h) is
  the sum over the contracted coordinate l of A(l, r)·B(l, h): the product of the transpose of A with B. Into a zero
  accumulator, and at the ideal values, where no rounding and no order of summation is left, the product read at (r, h)
  is exactly that sum. The four coordinate lemmas say where each operand is read: the contracted axis takes the
  contraction's one coordinate, the other axis the matching coordinate of the result.
-/
import Idealize.ShloMosaic.PureOps.Ideal.Laws
import Idealize.ShloMosaic.Lib.ValueIdx

noncomputable section

namespace Idealize.ShloMosaic.MatmulColsByCols

open Idealize.ShloMosaic Idealize.ShloMosaic.ValueIdx

variable {m k n : ℕ}

/-- The dimension numbers `[0] × [0]`, kept axes `[1]` and `[1]`, no batch axis. -/
abbrev dims (w : DotDims.WF ⟨2, ![k, m]⟩ ⟨2, ![k, n]⟩ ⟨2, ![m, n]⟩ [0] [0] [1] [1] [] []) :
    DotDims ⟨2, ![k, m]⟩ ⟨2, ![k, n]⟩ ⟨2, ![m, n]⟩ := ⟨[0], [0], [1], [1], [], [], w⟩

/-- The left operand's contracted axis reads the contraction's coordinate. -/
theorem lhs_0 (w : DotDims.WF ⟨2, ![k, m]⟩ ⟨2, ![k, n]⟩ ⟨2, ![m, n]⟩ [0] [0] [1] [1] [] [])
    (j : (⟨2, ![m, n]⟩ : Shape).Idx) (q : (dims w).contr.Idx) :
    ((dims w).lhsIdx j q 0).val = (q ⟨0, Nat.one_pos⟩).val :=
  (dims w).lhsIdx_val_of_single rfl j q

/-- The left operand's kept axis reads the result's first coordinate. -/
theorem lhs_1 (w : DotDims.WF ⟨2, ![k, m]⟩ ⟨2, ![k, n]⟩ ⟨2, ![m, n]⟩ [0] [0] [1] [1] [] [])
    (j : (⟨2, ![m, n]⟩ : Shape).Idx) (q : (dims w).contr.Idx) :
    ((dims w).lhsIdx j q 1).val = (j 0).val := by
  unfold DotDims.lhsIdx
  rw [dif_neg (show ¬(1 : Fin 2) ∈ (dims w).lhsBatch from List.not_mem_nil),
    dif_pos (show (1 : Fin 2) ∈ (dims w).lhsNonContracting from List.mem_singleton.mpr rfl)]
  rfl

/-- The right operand's contracted axis reads the contraction's coordinate. -/
theorem rhs_0 (w : DotDims.WF ⟨2, ![k, m]⟩ ⟨2, ![k, n]⟩ ⟨2, ![m, n]⟩ [0] [0] [1] [1] [] [])
    (j : (⟨2, ![m, n]⟩ : Shape).Idx) (q : (dims w).contr.Idx) :
    ((dims w).rhsIdx j q 0).val = (q ⟨0, Nat.one_pos⟩).val :=
  (dims w).rhsIdx_val_of_single rfl j q

/-- The right operand's kept axis reads the result's second coordinate. -/
theorem rhs_1 (w : DotDims.WF ⟨2, ![k, m]⟩ ⟨2, ![k, n]⟩ ⟨2, ![m, n]⟩ [0] [0] [1] [1] [] [])
    (j : (⟨2, ![m, n]⟩ : Shape).Idx) (q : (dims w).contr.Idx) :
    ((dims w).rhsIdx j q 1).val = (j 1).val := by
  unfold DotDims.rhsIdx
  rw [dif_neg (show ¬(1 : Fin 2) ∈ (dims w).rhsBatch from List.not_mem_nil),
    dif_pos (show (1 : Fin 2) ∈ (dims w).rhsNonContracting from List.mem_singleton.mpr rfl)]
  rfl

/-- A kernel's product of the transpose of a k×m matrix with a k×n matrix into the zero accumulator, read at `(r, h)`. -/
theorem matmul_cols_apply {φ₁ φ₂ : FTy}
    (w : DotDims.WF ⟨2, ![k, m]⟩ ⟨2, ![k, n]⟩ ⟨2, ![m, n]⟩ [0] [0] [1] [1] [] [])
    (prec : Option ContractPrecision) (A : FVec Ideal ⟨2, ![k, m]⟩ φ₁) (B : FVec Ideal ⟨2, ![k, n]⟩ φ₂)
    (r : Fin m) (h : Fin n) :
    FloatOps.matmul (⟨[0], [0], [1], [1], [], [], w⟩ : DotDims _ _ _) prec A B
        (constant ⟨2, ![m, n]⟩ .f32 0x00000000#32) (ix2 r h)
      = ∑ l : Fin k, A (ix2 l r) * B (ix2 l h) := by
  rw [Ideal.matmul_constant_zero_apply, ← Equiv.sum_comp (contrEquiv1 (dims w) k rfl rfl).symm]
  refine Finset.sum_congr rfl fun l _ => ?_
  have c2 := contrEquiv1_symm_val (dims w) k rfl rfl l
  have l2 : (dims w).lhsIdx (ix2 r h) ((contrEquiv1 (dims w) k rfl rfl).symm l) = ix2 l r := by
    funext ax; apply Fin.ext
    match ax with
    | ⟨0, _⟩ => exact (lhs_0 w _ _).trans c2
    | ⟨1, _⟩ => exact lhs_1 w _ _
  have r2 : (dims w).rhsIdx (ix2 r h) ((contrEquiv1 (dims w) k rfl rfl).symm l) = ix2 l h := by
    funext ax; apply Fin.ext
    match ax with
    | ⟨0, _⟩ => exact (rhs_0 w _ _).trans c2
    | ⟨1, _⟩ => exact rhs_1 w _ _
  rw [l2, r2]

end Idealize.ShloMosaic.MatmulColsByCols

end
-- ==== Proof.KReg1.lean ====
/-
  The attention call. Grid point t takes the 2048 × 64 matrix P of batch-and-head t, forms the 64 × 64 matrix PᵀP,
  multiplies P into it and scales: (Σ_d₁ P(q, d₁)·(Σ_s P(s, d₁)·P(s, d)))·sc at (q, d). The 32 blocks tile the output.
-/
import proofs.«123691_j8297876815995_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«123691_j8297876815995_1_alg».proof.Proof.LibDenseLayer
import proofs.«123691_j8297876815995_1_alg».proof.Proof.LibMatmulColsByCols
set_option maxRecDepth 16384

noncomputable section

namespace Cert.KernelIdeal.KVal

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The call's input array as it finds it, and its output array after it, by their literal types. -/
abbrev arrP1 (c : Dev nD) : FVec Ideal S32x2048x64 .bf16 := V c main_v9
abbrev arrO1 (c : Dev nD) : FVec Ideal S32x2048x64 .f32 := (dat1 (F := Ideal) V c).arrAt 1 cfg1.N

/-! ## One block: the body's arithmetic read at an index -/

/-- The value at row q, column d of slice b of an array P of 32 slices: the row q of P·(PᵀP) of that slice at
    column d, scaled. -/
private def attn1 (P : FVec Ideal S32x2048x64 .bf16) (b : Fin 32) (q : Fin 2048) (d : Fin 64) : EReal :=
  (∑ d₁ : Fin 64, P (ix3 b q d₁) * ∑ s : Fin 2048, P (ix3 b s d₁) * P (ix3 b s d)) * Ideal.ofBits .f32 0x3D000000#32

/-- The whole output array, index by index. -/
private def attnArr1 (P : FVec Ideal S32x2048x64 .bf16) : FVec Ideal S32x2048x64 .f32 := fun i => attn1 P (i 0) (i 1) (i 2)

/-- The body's result on one 2048 × 64 block x0, at row q and column d: the leading unit axis is dropped, PᵀP is
    the product contracting the rows of both operands, its rounding is the identity at the ideal values, the second
    product contracts the columns of P with the rows of PᵀP, and the scale multiplies every entry. -/
private theorem pay1_apply (x0 : Vec Ideal S1x2048x64 .bf16) (q : Fin 2048) (d : Fin 64) :
    k1_pay1 (F := Ideal) x0 (ix3 (0 : Fin 1) q d)
      = (∑ d₁ : Fin 64, x0 (ix3 (0 : Fin 1) q d₁) * ∑ s : Fin 2048, x0 (ix3 (0 : Fin 1) s d₁) * x0 (ix3 (0 : Fin 1) s d))
          * Ideal.ofBits .f32 0x3D000000#32 := by
  unfold k1_pay1
  refine (shapeCast_ab_1ab_apply _ _ (0 : Fin 1) q d).trans ?_
  rw [mulf_apply, broadcast_apply]
  refine congrArg₂ (· * ·) ?_ rfl
  refine (DenseLayer.matmul_rows_apply dot_S2048x64_S64x64_S2048x64_1_0_0_1_n_n_wf none _ _ q d).trans ?_
  refine Finset.sum_congr rfl fun d₁ _ => ?_
  rw [shapeCast_1ab_ab_apply, truncf_apply]
  refine congrArg₂ (· * ·) rfl ?_
  refine (MatmulColsByCols.matmul_cols_apply dot_S2048x64_S2048x64_S64x64_0_0_1_1_n_n_wf none _ _ d₁ d).trans ?_
  refine Finset.sum_congr rfl fun s _ => ?_
  rw [shapeCast_1ab_ab_apply, shapeCast_1ab_ab_apply]

/-- A block x0 that is slice b of the array P, row by row (the sum over s reads every row of the block), gives at the
    block index j what the array's function gives at the array index i with the same row and column in slice b. -/
private theorem pay1_of_slice (x0 : Vec Ideal S1x2048x64 .bf16) (P : FVec Ideal S32x2048x64 .bf16) (b : Fin 32)
    (hx : ∀ (s : Fin 2048) (e : Fin 64), x0 (ix3 (0 : Fin 1) s e) = P (ix3 b s e))
    (j : S1x2048x64.Idx) (i : S32x2048x64.Idx)
    (h0 : (i 0).val = b.val) (h1 : (i 1).val = (j 1).val) (h2 : (i 2).val = (j 2).val) :
    k1_pay1 (F := Ideal) x0 j = attnArr1 P i := by
  obtain ⟨u, q, d, rfl⟩ : ∃ (u : Fin 1) (q : Fin 2048) (d : Fin 64), j = ix3 u q d := ⟨j 0, j 1, j 2, eq_ix3 j⟩
  obtain rfl : u = 0 := Fin.ext (by omega)
  obtain rfl : i = ix3 b q d := by
    funext a; apply Fin.ext
    match a with
    | ⟨0, _⟩ => exact h0
    | ⟨1, _⟩ => exact h1
    | ⟨2, _⟩ => exact h2
  rw [pay1_apply]
  simp only [hx]
  rfl

/-! ## From the blocks to the array -/

private theorem zero_offsets1 : (![0, 0, 0] : Fin 3 → Nat) = fun _ => 0 := funext fun a => by fin_cases a <;> rfl

/-- The two windows' index maps at each of the 32 points: point t reads block (t, 0, 0) and writes block (t, 0, 0). -/
private theorem block_index1 : ∀ t : Fin cfg1.N, win1_0.index t (0 : Fin 3) = t.val ∧ win1_0.index t (1 : Fin 3) = 0
    ∧ win1_0.index t (2 : Fin 3) = 0 ∧ win1_1.index t (0 : Fin 3) = t.val ∧ win1_1.index t (1 : Fin 3) = 0
    ∧ win1_1.index t (2 : Fin 3) = 0 :=
  (by decide +kernel : ∀ t : Fin grid1.N, _)

/-- The input block at point t is slice t of the input array, row by row. -/
private theorem iblk1_slice (c : Dev nD) (t : Fin cfg1.N) (ht : t.val < 32) (s : Fin 2048) (e : Fin 64) :
    iblk1 (F := Ideal) V c 0 t (ix3 (0 : Fin 1) s e) = arrP1 V c (ix3 (⟨t.val, ht⟩ : Fin 32) s e) := by
  obtain ⟨e0, e1, e2, -, -, -⟩ := block_index1 t
  show V c main_v9 (((cfg1.win 0).blk t).view.emb (ix3 (0 : Fin 1) s e)) = V c main_v9 (ix3 (⟨t.val, ht⟩ : Fin 32) s e)
  have h : ((cfg1.win 0).blk t).view.emb (ix3 (0 : Fin 1) s e) = ix3 (⟨t.val, ht⟩ : Fin 32) s e := by
    funext a; apply Fin.ext
    match a with
    | ⟨0, _⟩ => show win1_0.index t (0 : Fin 3) * 1 + 1 * 0 = t.val; omega
    | ⟨1, _⟩ => show win1_0.index t (1 : Fin 3) * 2048 + 1 * s.val = s.val; omega
    | ⟨2, _⟩ => show win1_0.index t (2 : Fin 3) * 64 + 1 * e.val = e.val; omega
  rw [h]

/-- WHAT POINT t WRITES BACK is block t of the array's function of the input array as the call finds it. -/
private theorem writeback1_eq_slice (c : Dev nD) (t : Fin cfg1.N) :
    (dat1 (F := Ideal) V c).flushed 1 t = ((cfg1.win 1).blk t).view.read (Elt Ideal) (attnArr1 (arrP1 V c)) := by
  show (cfg1.win 1).cut (grid1.coords t) ((dat1 (F := Ideal) V c).after 1 t) = _
  rw [after1_1]
  unfold out1_1
  rw [View.canon_unit_zero zero_offsets1]
  simp only [View.ld_unit_zero (S := S1x2048x64) zero_offsets1]
  obtain ⟨-, -, -, f0, f1, f2⟩ := block_index1 t
  have ht : t.val < 32 := t.isLt
  funext y
  have hy0 : (y 0).val < 1 := (y 0).isLt
  show k1_pay1 (F := Ideal) (iblk1 V c 0 t) ((cfg1.win 1).xinj (grid1.coords t) y) = attnArr1 (arrP1 V c) (((cfg1.win 1).blk t).view.emb y)
  refine pay1_of_slice (iblk1 V c 0 t) (arrP1 V c) ⟨t.val, ht⟩ (iblk1_slice V c t ht) _ _ ?_ ?_ ?_
  · show win1_1.index t (0 : Fin 3) * 1 + 1 * (y 0).val = t.val; omega
  · show win1_1.index t (1 : Fin 3) * 2048 + 1 * (y 1).val = (y 1).val; omega
  · show win1_1.index t (2 : Fin 3) * 64 + 1 * (y 2).val = (y 2).val; omega

/-- An index of the array is in point t's block iff each coordinate is in the block's range on its axis. -/
private theorem mem_block1_iff (t : Fin cfg1.N) (i : S32x2048x64.Idx) :
    i ∈ ((cfg1.win 1).blk t).view.set ↔ ∀ a : Fin 3, win1_1.index t a * S1x2048x64.size a ≤ (i a).val ∧ (i a).val < win1_1.index t a * S1x2048x64.size a + S1x2048x64.size a := by
  show i ∈ ((View.whole main_v10).slice (win1_1.rect t)).set ↔ _
  rw [View.set_slice_whole, Rect.mem_set_unit]
  exact Iff.rfl

/-- Every index of the output array is in some point's block: slice b is point b's. -/
private theorem slices_cover1 (i : S32x2048x64.Idx) :
    ∃ t : Fin cfg1.N, (cfg1.win 1).flush t = true ∧ i ∈ ((cfg1.win 1).blk t).view.set := by
  have hi0 : (i 0).val < 32 := (i 0).isLt
  have hi1 : (i 1).val < 2048 := (i 1).isLt
  have hi2 : (i 2).val < 64 := (i 2).isLt
  obtain ⟨-, -, -, f0, f1, f2⟩ := block_index1 ⟨(i 0).val, hi0⟩
  have f0' : win1_1.index ⟨(i 0).val, hi0⟩ (0 : Fin 3) = (i 0).val := f0
  refine ⟨⟨(i 0).val, hi0⟩, flush1_1 _, ?_⟩
  rw [mem_block1_iff]
  intro a
  match a with
  | ⟨0, _⟩ => show win1_1.index ⟨(i 0).val, hi0⟩ (0 : Fin 3) * 1 ≤ (i 0).val ∧ (i 0).val < win1_1.index ⟨(i 0).val, hi0⟩ (0 : Fin 3) * 1 + 1; omega
  | ⟨1, _⟩ => show win1_1.index ⟨(i 0).val, hi0⟩ (1 : Fin 3) * 2048 ≤ (i 1).val ∧ (i 1).val < win1_1.index ⟨(i 0).val, hi0⟩ (1 : Fin 3) * 2048 + 2048; omega
  | ⟨2, _⟩ => show win1_1.index ⟨(i 0).val, hi0⟩ (2 : Fin 3) * 64 ≤ (i 2).val ∧ (i 2).val < win1_1.index ⟨(i 0).val, hi0⟩ (2 : Fin 3) * 64 + 64; omega

/-- THE ARRAY after the call: its function of the input array, everywhere. -/
private theorem arrO1_eq_attn (c : Dev nD) : arrO1 V c = attnArr1 (arrP1 V c) :=
  Dat.arrAt_eq_of_cover (dat1 (F := Ideal) V c) 1 (attnArr1 (arrP1 V c)) (fun t _ => writeback1_eq_slice V c t) slices_cover1

theorem final1 (c : Dev nD) (bh : Fin 32) (q : Fin 2048) (d : Fin 64) :
    arrO1 V c (ix3 bh q d)
      = (∑ d₁ : Fin 64, arrP1 V c (ix3 bh q d₁) * ∑ s : Fin 2048, arrP1 V c (ix3 bh s d₁) * arrP1 V c (ix3 bh s d))
          * Ideal.ofBits .f32 0x3D000000#32 := by
  rw [arrO1_eq_attn]
  rfl

end Cert.KernelIdeal.KVal

end
-- ==== Proof.KReg2.lean ====
/-
  The second dense layer's call: as the first, on the merged heads, the zero-padded weight matrix and the padded bias
  row. Each of its two grid points takes 2048 rows of the 4096 × 1024 input, the whole 1024 × 1024 weight matrix and the
  one-row bias, and writes the 2048 rows of the product plus the bias row. The two blocks tile the output, so after the
  call the output array holds, at (r, g), Σ_l X(r, l)·Wt(l, g) + bias(0, g) of the arrays as the call found them.
-/
import proofs.«123691_j8297876815995_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«123691_j8297876815995_1_alg».proof.Proof.LibDenseLayer
set_option maxRecDepth 16384

noncomputable section

namespace Cert.KernelIdeal.KVal

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The call's arrays as it finds them, and its output array after it, by their literal types. -/
abbrev arrX2 (c : Dev nD) : FVec Ideal S4096x1024 .bf16 := V c main_v14
abbrev arrW2 (c : Dev nD) : FVec Ideal S1024x1024 .bf16 := V c main_v17
abbrev arrB2 (c : Dev nD) : FVec Ideal S1x1024 .f32 := V c main_v19
abbrev arrO2 (c : Dev nD) : FVec Ideal S4096x1024 .f32 := (dat2 (F := Ideal) V c).arrAt 3 cfg2.N

/-- The body's arithmetic at one entry: the product of the two blocks into a zero accumulator, plus the bias row. -/
private theorem pay_apply2 (x0 : Vec Ideal S2048x1024 .bf16) (x1 : Vec Ideal S1024x1024 .bf16) (x2 : Vec Ideal S1x1024 .f32)
    (p : Fin 2048) (g : Fin 1024) :
    k2_pay1 x0 x1 x2 (ix2 p g) = (∑ l : Fin 1024, x0 (ix2 p l) * x1 (ix2 l g)) + x2 (ix2 (0 : Fin 1) g) := by
  unfold k2_pay1
  rw [shapeCast_self, shapeCast_self, shapeCast_self]
  refine (addf_apply _ _ (ix2 p g)).trans ?_
  refine congrArg₂ (· + ·) ?_ ?_
  · exact DenseLayer.matmul_rows_apply dot_S2048x1024_S1024x1024_S2048x1024_1_0_0_1_n_n_wf none x0 x1 p g
  · exact broadcastTo_1b_ab_apply x2 broadcasts_S1x1024_S2048x1024 p g

/-- The offset of a whole-buffer access is zero on every axis. -/
private theorem hz2 : (![0, 0] : Fin 2 → Nat) = fun _ => 0 := funext fun a => by fin_cases a <;> rfl

/-- The dense layer of the arrays the call finds, entry by entry. -/
private def G2 (c : Dev nD) : FVec Ideal S4096x1024 .f32 := fun i =>
  (∑ l : Fin 1024, arrX2 V c (ix2 (⟨(i 0).val, (i 0).isLt⟩ : Fin 4096) l) * arrW2 V c (ix2 l (⟨(i 1).val, (i 1).isLt⟩ : Fin 1024)))
    + arrB2 V c (ix2 (0 : Fin 1) (⟨(i 1).val, (i 1).isLt⟩ : Fin 1024))

/-- The printed index maps, decided over the grid: the input's and the output's blocks are at block row t, the weights
    and the bias are whole at every point. -/
private theorem idx_facts2 : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = t.val
    ∧ win2_3.index t (1 : Fin 2) = 0 :=
  (by decide +kernel : ∀ t : Fin grid2.N, _)

/-- Point t's block of the input holds rows 2048·t … 2048·t + 2047 of the input array. -/
private theorem blkX2 (c : Dev nD) (t : Fin cfg2.N) (p : Fin 2048) (l : Fin 1024) (r : Fin 4096) (hr : r.val = t.val * 2048 + p.val) :
    (iblk2 V c 0 t : Vec Ideal S2048x1024 .bf16) (ix2 p l) = arrX2 V c (ix2 r l) := by
  obtain ⟨e0, e1, -⟩ := idx_facts2 t
  show arrX2 V c (((cfg2.win 0).blk t).view.emb (ix2 p l)) = arrX2 V c (ix2 r l)
  refine congrArg (arrX2 V c) ?_
  funext a; apply Fin.ext
  match a with
  | ⟨0, _⟩ => show win2_0.index t (0 : Fin 2) * 2048 + 1 * p.val = r.val; omega
  | ⟨1, _⟩ => show win2_0.index t (1 : Fin 2) * 1024 + 1 * l.val = l.val; omega

/-- Every point's block of the weights is the whole weight matrix. -/
private theorem blkW2 (c : Dev nD) (t : Fin cfg2.N) (l : Fin 1024) (g : Fin 1024) :
    (iblk2 V c 1 t : Vec Ideal S1024x1024 .bf16) (ix2 l g) = arrW2 V c (ix2 l g) := by
  obtain ⟨-, -, e0, e1, -⟩ := idx_facts2 t
  show arrW2 V c (((cfg2.win 1).blk t).view.emb (ix2 l g)) = arrW2 V c (ix2 l g)
  refine congrArg (arrW2 V c) ?_
  funext a; apply Fin.ext
  match a with
  | ⟨0, _⟩ => show win2_1.index t (0 : Fin 2) * 1024 + 1 * l.val = l.val; omega
  | ⟨1, _⟩ => show win2_1.index t (1 : Fin 2) * 1024 + 1 * g.val = g.val; omega

/-- Every point's block of the bias is the whole bias row. -/
private theorem blkB2 (c : Dev nD) (t : Fin cfg2.N) (g : Fin 1024) :
    (iblk2 V c 2 t : Vec Ideal S1x1024 .f32) (ix2 (0 : Fin 1) g) = arrB2 V c (ix2 (0 : Fin 1) g) := by
  obtain ⟨-, -, -, -, e0, e1, -⟩ := idx_facts2 t
  show arrB2 V c (((cfg2.win 2).blk t).view.emb (ix2 (0 : Fin 1) g)) = arrB2 V c (ix2 (0 : Fin 1) g)
  refine congrArg (arrB2 V c) ?_
  funext a; apply Fin.ext
  match a with
  | ⟨0, _⟩ => show win2_2.index t (0 : Fin 2) * 1 + 1 * (0 : Fin 1).val = (0 : Fin 1).val; omega
  | ⟨1, _⟩ => show win2_2.index t (1 : Fin 2) * 1024 + 1 * g.val = g.val; omega

/-- Where point t's output block sits in the output array: rows 2048·t … 2048·t + 2047, every column. -/
private theorem embO2 (t : Fin cfg2.N) (p : Fin 2048) (g : Fin 1024) :
    ((((cfg2.win 3).blk t).view.emb (ix2 p g)) 0).val = t.val * 2048 + p.val
      ∧ ((((cfg2.win 3).blk t).view.emb (ix2 p g)) 1).val = g.val := by
  obtain ⟨-, -, -, -, -, -, e0, e1⟩ := idx_facts2 t
  constructor
  · show win2_3.index t (0 : Fin 2) * 2048 + 1 * p.val = _; omega
  · show win2_3.index t (1 : Fin 2) * 1024 + 1 * g.val = _; omega

set_option maxHeartbeats 400000 in
/-- What point t writes back is its block of the dense layer of the arrays the call finds. -/
private theorem flushed_eq2 (c : Dev nD) (t : Fin cfg2.N) :
    (dat2 V c).flushed 3 t = ((cfg2.win 3).blk t).view.read (Elt Ideal) (G2 V c) := by
  show (cfg2.win 3).cut (grid2.coords t) ((dat2 V c).after 3 t) = _
  rw [after2_3]
  unfold out2_3
  rw [View.canon_unit_zero hz2]
  simp only [View.ld_unit_zero (S := S2048x1024) hz2, View.ld_unit_zero (S := S1024x1024) hz2, View.ld_unit_zero (S := S1x1024) hz2]
  funext y
  obtain ⟨p, g, rfl⟩ : ∃ (p : Fin 2048) (g : Fin 1024), y = ix2 p g := ⟨y 0, y 1, eq_ix2 y⟩
  show k2_pay1 (iblk2 V c 0 t) (iblk2 V c 1 t) (iblk2 V c 2 t) (ix2 p g) = G2 V c (((cfg2.win 3).blk t).view.emb (ix2 p g))
  refine (pay_apply2 (iblk2 V c 0 t) (iblk2 V c 1 t) (iblk2 V c 2 t) p g).trans ?_
  obtain ⟨h0, h1⟩ := embO2 t p g
  unfold G2
  refine congrArg₂ (· + ·) (Finset.sum_congr rfl fun l _ => congrArg₂ (· * ·) ?_ ?_) ?_
  · exact blkX2 V c t p l _ h0
  · exact (blkW2 V c t l g).trans (congrArg (fun z => arrW2 V c (ix2 l z)) (Fin.ext h1.symm))
  · exact (blkB2 V c t g).trans (congrArg (fun z => arrB2 V c (ix2 (0 : Fin 1) z)) (Fin.ext h1.symm))

/-- An index of the output array is in point t's block iff each coordinate is in the block's range on its axis. -/
private theorem mem_blk2 (t : Fin cfg2.N) (i : S4096x1024.Idx) :
    i ∈ ((cfg2.win 3).blk t).view.set ↔ ∀ a : Fin 2, win2_3.index t a * S2048x1024.size a ≤ (i a).val ∧ (i a).val < win2_3.index t a * S2048x1024.size a + S2048x1024.size a := by
  show i ∈ ((View.whole main_v20).slice (win2_3.rect t)).set ↔ _
  rw [View.set_slice_whole, Rect.mem_set_unit]
  exact Iff.rfl

/-- Every block row of the output is some point's. -/
private theorem idx_onto2 : ∀ q : Fin 2, ∃ t : Fin cfg2.N, win2_3.index t = ![q.val, 0] :=
  (by decide +kernel : ∀ q : Fin 2, ∃ t : Fin grid2.N, win2_3.index t = ![q.val, 0])

/-- The two blocks tile the output: row r is in block r / 2048. -/
private theorem cover2 (i : S4096x1024.Idx) :
    ∃ t : Fin cfg2.N, (cfg2.win 3).flush t = true ∧ i ∈ ((cfg2.win 3).blk t).view.set := by
  have hi0 : (i 0).val < 4096 := (i 0).isLt
  have hi1 : (i 1).val < 1024 := (i 1).isLt
  obtain ⟨t, ht⟩ := idx_onto2 ⟨(i 0).val / 2048, by omega⟩
  have q0 : win2_3.index t (0 : Fin 2) = (i 0).val / 2048 := congrFun ht 0
  have q1 : win2_3.index t (1 : Fin 2) = 0 := congrFun ht 1
  refine ⟨t, flush2_3 t, ?_⟩
  rw [mem_blk2]
  intro a
  match a with
  | ⟨0, _⟩ => show win2_3.index t (0 : Fin 2) * 2048 ≤ (i 0).val ∧ (i 0).val < win2_3.index t (0 : Fin 2) * 2048 + 2048; omega
  | ⟨1, _⟩ => show win2_3.index t (1 : Fin 2) * 1024 ≤ (i 1).val ∧ (i 1).val < win2_3.index t (1 : Fin 2) * 1024 + 1024; omega

/-- The output array after the call: at (r, g) the product's entry plus the bias row's, of the arrays as the call found them. -/
theorem final2 (c : Dev nD) (r : Fin 4096) (g : Fin 1024) :
    arrO2 V c (ix2 r g)
      = (∑ l : Fin 1024, arrX2 V c (ix2 r l) * arrW2 V c (ix2 l g)) + arrB2 V c (ix2 (0 : Fin 1) g) :=
  congrFun (Dat.arrAt_eq_of_cover (dat2 V c) 3 (G2 V c) (fun t _ => flushed_eq2 V c t) cover2) (ix2 r g)

end Cert.KernelIdeal.KVal

end
-- ==== Proof.KHostA.lean ====
/-
  The host operations before the first two calls, read at an index. The input is flattened to 4096 rows (row
  b·2048 + s is row s of batch entry b), the first weight matrix is transposed, the bias becomes one row; changes of
  float format are the identity on the extended reals. Before the attention call the 4096 × 1024 projection is split
  into heads: slice b·16 + h, row s, lane d is row b·2048 + s, column h·64 + d.
-/
import proofs.«123691_j8297876815995_1_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
import proofs.«123691_j8297876815995_1_alg».proof.Proof.Spec
set_option maxRecDepth 16384

noncomputable section

namespace Cert.KernelIdeal.KVal

open Cert.KernelIdeal Cert.KernelIdeal.Gen Idealize.ShloMosaic Idealize.ShloMosaic.TcCoe Idealize.SL.Sem Idealize.ShloMosaic.ValueIdx
open Idealize.ShloMosaic.Pipeline (Dat)

open LinAttn

variable (m : (ℓ : Loc nD τ sig) → Buf (Elt Ideal) ℓ) (ρ : Dev nD → PrngReg)

/-! ## The reshapes and transposes at an index, over arrays of the literal shapes -/

/-- Flattening batch and sequence: row `b·2048 + s` of the flat array is row `s` of batch entry `b`. -/
private theorem flatten_apply (x : S2x2048x1024.Idx → EReal) (b : Fin 2) (s : Fin 2048) (l : Fin 1024) :
    shapeCast S4096x1024 x shapeCasts_S2x2048x1024_S4096x1024 (ix2 (rowOf b s) l) = x (ix3 b s l) :=
  shapeCast_apply x shapeCasts_S2x2048x1024_S4096x1024 (ix2 (rowOf b s) l) (ix3 b s l) (by
    rewrite [Shape.rowMajor_val_three, Shape.rowMajor_val_two]
    show (b.val * 2048 + s.val) * 1024 + l.val = (b.val * 2048 + s.val) * 1024 + l.val
    rfl)

/-- The transposed square matrix: entry `(l, g)` is entry `(g, l)` of the operand. -/
private theorem swap_apply (x : S1024x1024.Idx → EReal) (l g : Fin 1024) :
    transpose S1024x1024 [1, 0] x transposes_S1024x1024_S1024x1024_1_0 (ix2 l g) = x (ix2 g l) :=
  transpose_apply [1, 0] x transposes_S1024x1024_S1024x1024_1_0 (ix2 l g) (ix2 g l) (fun a => match a with
    | ⟨0, _⟩ => rfl
    | ⟨1, _⟩ => rfl)

/-- A vector as a one-row matrix. -/
private theorem row_apply (x : S1024.Idx → EReal) (g : Fin 1024) :
    shapeCast S1x1024 x shapeCasts_S1024_S1x1024 (ix2 (0 : Fin 1) g) = x (ix1 g) :=
  shapeCast_apply x shapeCasts_S1024_S1x1024 (ix2 (0 : Fin 1) g) (ix1 g) (by
    rewrite [Shape.rowMajor_val_one, Shape.rowMajor_val_two]
    show g.val = 0 * 1024 + g.val
    omega)

/-- Splitting the 1024 columns into 16 heads of 64 lanes: entry `(b, s, h, d)` is row `b·2048 + s`,
    column `h·64 + d`. -/
private theorem split_apply (x : S4096x1024.Idx → EReal) (b : Fin 2) (s : Fin 2048) (h : Fin 16) (d : Fin 64) :
    shapeCast S2x2048x16x64 x shapeCasts_S4096x1024_S2x2048x16x64 (ix4 b s h d) = x (ix2 (rowOf b s) (hd h d)) :=
  shapeCast_apply x shapeCasts_S4096x1024_S2x2048x16x64 (ix4 b s h d) (ix2 (rowOf b s) (hd h d)) (by
    rewrite [Shape.rowMajor_val_two, Shape.rowMajor_val_four]
    show (b.val * 2048 + s.val) * 1024 + (h.val * 64 + d.val) = ((b.val * 2048 + s.val) * 16 + h.val) * 64 + d.val
    omega)

/-- Exchanging the sequence and head axes. -/
private theorem heads_apply (x : S2x2048x16x64.Idx → EReal) (b : Fin 2) (h : Fin 16) (s : Fin 2048) (d : Fin 64) :
    transpose S2x16x2048x64 [0, 2, 1, 3] x transposes_S2x2048x16x64_S2x16x2048x64_0_2_1_3 (ix4 b h s d) = x (ix4 b s h d) :=
  transpose_apply [0, 2, 1, 3] x transposes_S2x2048x16x64_S2x16x2048x64_0_2_1_3 (ix4 b h s d) (ix4 b s h d) (fun a => match a with
    | ⟨0, _⟩ => rfl
    | ⟨1, _⟩ => rfl
    | ⟨2, _⟩ => rfl
    | ⟨3, _⟩ => rfl)

/-- Merging batch and head into one axis of 32 slices: slice `b·16 + h` is head `h` of batch entry `b`. -/
private theorem merge_apply (x : S2x16x2048x64.Idx → EReal) (b : Fin 2) (h : Fin 16) (s : Fin 2048) (d : Fin 64) :
    shapeCast S32x2048x64 x shapeCasts_S2x16x2048x64_S32x2048x64 (ix3 (bhOf b h) s d) = x (ix4 b h s d) :=
  shapeCast_apply x shapeCasts_S2x16x2048x64_S32x2048x64 (ix3 (bhOf b h) s d) (ix4 b h s d) (by
    rewrite [Shape.rowMajor_val_four, Shape.rowMajor_val_three]
    show ((b.val * 16 + h.val) * 2048 + s.val) * 64 + d.val = ((b.val * 16 + h.val) * 2048 + s.val) * 64 + d.val
    rfl)

/-- The three layout steps between the first dense layer and the attention call: split the columns into heads, move
    the head axis in front of the sequence axis, merge batch and head. -/
private def headsOf (x : S4096x1024.Idx → EReal) : S32x2048x64.Idx → EReal :=
  shapeCast S32x2048x64
    (transpose S2x16x2048x64 [0, 2, 1, 3] (shapeCast S2x2048x16x64 x shapeCasts_S4096x1024_S2x2048x16x64)
      transposes_S2x2048x16x64_S2x16x2048x64_0_2_1_3)
    shapeCasts_S2x16x2048x64_S32x2048x64

/-- Slice `b·16 + h`, row `s`, lane `d` of the heads is row `b·2048 + s`, column `h·64 + d` of the flat array. -/
private theorem headsOf_apply (x : S4096x1024.Idx → EReal) (b : Fin 2) (h : Fin 16) (s : Fin 2048) (d : Fin 64) :
    headsOf x (ix3 (bhOf b h) s d) = x (ix2 (rowOf b s) (hd h d)) :=
  (merge_apply (transpose S2x16x2048x64 [0, 2, 1, 3] (shapeCast S2x2048x16x64 x shapeCasts_S4096x1024_S2x2048x16x64)
      transposes_S2x2048x16x64_S2x16x2048x64_0_2_1_3) b h s d).trans
    ((heads_apply (shapeCast S2x2048x16x64 x shapeCasts_S4096x1024_S2x2048x16x64) b h s d).trans
      (split_apply x b s h d))

/-! ## What the host operations leave, as terms over the launch contents -/

/-- The flattened input, its float format narrowed. -/
private theorem v1_eq (c : Dev nD) :
    (V1 m ρ c main_v1 : S4096x1024.Idx → EReal)
      = (truncf (F := Ideal) (s := S4096x1024) (φ := .f32) .bf16
          (shapeCast S4096x1024 (m ((c : Thread nD τ).loc main_arg0) : S2x2048x1024.Idx → EReal)
            shapeCasts_S2x2048x1024_S4096x1024) bitsLt_bf16_f32 : S4096x1024.Idx → EReal) := by
  show StableHlo.after hostOps0 (W0 m ρ c) (Proc.devRef .tc main_v1) = _
  after_results <;> rfl

/-- The transposed first weight matrix, its float format narrowed. -/
private theorem v3_eq (c : Dev nD) :
    (V1 m ρ c main_v3 : S1024x1024.Idx → EReal)
      = (truncf (F := Ideal) (s := S1024x1024) (φ := .f32) .bf16
          (transpose S1024x1024 [1, 0] (m ((c : Thread nD τ).loc main_arg1) : S1024x1024.Idx → EReal)
            transposes_S1024x1024_S1024x1024_1_0) bitsLt_bf16_f32 : S1024x1024.Idx → EReal) := by
  show StableHlo.after hostOps0 (W0 m ρ c) (Proc.devRef .tc main_v3) = _
  after_results <;> rfl

/-- The bias as one row. -/
private theorem v4_eq (c : Dev nD) :
    (V1 m ρ c main_v4 : S1x1024.Idx → EReal)
      = (shapeCast S1x1024 (m ((c : Thread nD τ).loc main_arg2) : S1024.Idx → EReal)
          shapeCasts_S1024_S1x1024 : S1x1024.Idx → EReal) := by
  show StableHlo.after hostOps0 (W0 m ρ c) (Proc.devRef .tc main_v4) = _
  after_results <;> rfl

/-- The projection split into heads, the head axis moved in front of the sequence axis, batch and head merged,
    the float format narrowed. -/
private theorem v9_eq (c : Dev nD) :
    (V3 m ρ c main_v9 : S32x2048x64.Idx → EReal)
      = (truncf (F := Ideal) (s := S32x2048x64) (φ := .f32) .bf16
          (headsOf (W2 m ρ c (Proc.devRef .tc main_v5) : S4096x1024.Idx → EReal)) bitsLt_bf16_f32
            : S32x2048x64.Idx → EReal) := by
  show StableHlo.after hostOps1 (W2 m ρ c) (Proc.devRef .tc main_v9) = _
  after_results <;> rfl

/-! ## The four windows' arrays at an index -/

theorem v1_apply (c : Dev nD) (b : Fin 2) (s : Fin 2048) (l : Fin 1024) :
    V1 m ρ c main_v1 (ix2 (rowOf b s) l) = m ((c : Thread nD τ).loc main_arg0) (ix3 b s l) := by
  refine (congrFun (v1_eq m ρ c) (ix2 (rowOf b s) l)).trans ?_
  -- narrowing the float format is the identity on the extended reals
  refine (truncf_apply (s := S4096x1024) (φ := .f32) (ψ := .bf16)
    (shapeCast S4096x1024 (m ((c : Thread nD τ).loc main_arg0) : S2x2048x1024.Idx → EReal)
      shapeCasts_S2x2048x1024_S4096x1024) bitsLt_bf16_f32 (ix2 (rowOf b s) l)).trans ?_
  exact flatten_apply (m ((c : Thread nD τ).loc main_arg0)) b s l

theorem v3_apply (c : Dev nD) (l g : Fin 1024) :
    V1 m ρ c main_v3 (ix2 l g) = m ((c : Thread nD τ).loc main_arg1) (ix2 g l) := by
  refine (congrFun (v3_eq m ρ c) (ix2 l g)).trans ?_
  -- narrowing the float format is the identity on the extended reals
  refine (truncf_apply (s := S1024x1024) (φ := .f32) (ψ := .bf16)
    (transpose S1024x1024 [1, 0] (m ((c : Thread nD τ).loc main_arg1) : S1024x1024.Idx → EReal)
      transposes_S1024x1024_S1024x1024_1_0) bitsLt_bf16_f32 (ix2 l g)).trans ?_
  exact swap_apply (m ((c : Thread nD τ).loc main_arg1)) l g

theorem v4_apply (c : Dev nD) (g : Fin 1024) :
    V1 m ρ c main_v4 (ix2 (0 : Fin 1) g) = m ((c : Thread nD τ).loc main_arg2) (ix1 g) := by
  refine (congrFun (v4_eq m ρ c) (ix2 (0 : Fin 1) g)).trans ?_
  exact row_apply (m ((c : Thread nD τ).loc main_arg2)) g

theorem v9_apply (c : Dev nD) (b : Fin 2) (h : Fin 16) (s : Fin 2048) (d : Fin 64) :
    V3 m ρ c main_v9 (ix3 (bhOf b h) s d) = W2 m ρ c (Proc.devRef .tc main_v5) (ix2 (rowOf b s) (hd h d)) := by
  refine (congrFun (v9_eq m ρ c) (ix3 (bhOf b h) s d)).trans ?_
  -- narrowing the float format is the identity on the extended reals
  refine (truncf_apply (s := S32x2048x64) (φ := .f32) (ψ := .bf16)
    (headsOf (W2 m ρ c (Proc.devRef .tc main_v5))) bitsLt_bf16_f32 (ix3 (bhOf b h) s d)).trans ?_
  exact headsOf_apply (W2 m ρ c (Proc.devRef .tc main_v5)) b h s d

end Cert.KernelIdeal.KVal

end
-- ==== Proof.KHostB.lean ====
/-
  The host operations before the last call and after it, read at an index. The attention output is merged back:
  row b·2048 + s, column f is slice b·16 + f / 64, row s, lane f % 64. The second weight matrix is transposed and its
  1000 columns padded to 1024, the bias padded likewise and made one row; at a column below 1000 the padding is not
  read. After the call the first 1000 columns are kept and the rows unflattened.
-/
import proofs.«123691_j8297876815995_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«123691_j8297876815995_1_alg».proof.Proof.Spec
import Idealize.ShloMosaic.Lib.KernelVsHost
set_option maxRecDepth 16384

noncomputable section

namespace Cert.KernelIdeal.KVal

open Cert.KernelIdeal Cert.KernelIdeal.Gen Idealize.ShloMosaic Idealize.ShloMosaic.TcCoe Idealize.SL.Sem Idealize.ShloMosaic.ValueIdx
open Idealize.ShloMosaic.Pipeline (Dat)

open LinAttn

variable (m : (ℓ : Loc nD τ sig) → Buf (Elt Ideal) ℓ) (ρ : Dev nD → PrngReg)

/-- No operation of the named stretch writes the buffer in question: each operation writes one buffer, and it is
    another one. -/
local macro "unwritten" ops:ident : tactic =>
  `(tactic| (refine List.forall_iff_forall_mem.mp ?_
             simp only [$ops:ident, List.Forall, StableHlo.nullary_writes, StableHlo.unary_writes, StableHlo.binary_writes,
               StableHlo.reshape_writes, Finset.mem_singleton]
             repeat' apply And.intro
             all_goals exact StableHlo.devRef_ne_of_ne (by decide)))

/-- The second weight matrix is an argument: nothing up to the second call's exit writes it. -/
private theorem W4_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) :=
        StableHlo.after_of_forall_not_mem (b := Proc.devRef .tc main_arg3) _ _ (by unwritten hostOps1)
    _ = W1 m ρ c (Proc.devRef .tc main_arg3) := W2_of_ne m ρ c main_arg3 (by decide)
    _ = W0 m ρ c (Proc.devRef .tc main_arg3) :=
        StableHlo.after_of_forall_not_mem (b := Proc.devRef .tc main_arg3) _ _ (by unwritten hostOps0)
    _ = m ((c : Thread nD τ).loc main_arg3) := rfl

/-- The second bias is an argument: nothing up to the second call's exit writes it. -/
private theorem W4_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) :=
        StableHlo.after_of_forall_not_mem (b := Proc.devRef .tc main_arg4) _ _ (by unwritten hostOps1)
    _ = W1 m ρ c (Proc.devRef .tc main_arg4) := W2_of_ne m ρ c main_arg4 (by decide)
    _ = W0 m ρ c (Proc.devRef .tc main_arg4) :=
        StableHlo.after_of_forall_not_mem (b := Proc.devRef .tc main_arg4) _ _ (by unwritten hostOps0)
    _ = m ((c : Thread nD τ).loc main_arg4) := rfl

/-- The merged attention output is written in the first stretch after the second call and not touched again before
    the last call. -/
private theorem V9_v14 (c : Dev nD) : V9 m ρ c main_v14 = W5 m ρ c (Proc.devRef .tc main_v14) :=
  calc W9 m ρ c (Proc.devRef .tc main_v14)
    _ = W8 m ρ c (Proc.devRef .tc main_v14) :=
        StableHlo.after_of_forall_not_mem (b := Proc.devRef .tc main_v14) _ _ (by unwritten hostOps2_4)
    _ = W7 m ρ c (Proc.devRef .tc main_v14) :=
        StableHlo.after_of_forall_not_mem (b := Proc.devRef .tc main_v14) _ _ (by unwritten hostOps2_3)
    _ = W6 m ρ c (Proc.devRef .tc main_v14) :=
        StableHlo.after_of_forall_not_mem (b := Proc.devRef .tc main_v14) _ _ (by unwritten hostOps2_2)
    _ = W5 m ρ c (Proc.devRef .tc main_v14) :=
        StableHlo.after_of_forall_not_mem (b := Proc.devRef .tc main_v14) _ _ (by unwritten hostOps2_1)

theorem v14_apply (c : Dev nD) (b : Fin 2) (s : Fin 2048) (f : Fin 1024) :
    V9 m ρ c main_v14 (ix2 (rowOf b s) f) = W4 m ρ c (Proc.devRef .tc main_v10) (ix3 (bhOf b (headOf f)) s (laneOf f)) := by
  have e : (W5 m ρ c (Proc.devRef .tc main_v14) : S4096x1024.Idx → EReal)
      = truncf (F := Ideal) .bf16 (shapeCast S4096x1024 (transpose S2x2048x16x64 [0, 2, 1, 3]
          (shapeCast S2x16x2048x64 (W4 m ρ c (Proc.devRef .tc main_v10) : S32x2048x64.Idx → EReal)
            shapeCasts_S32x2048x64_S2x16x2048x64)
          transposes_S2x16x2048x64_S2x2048x16x64_0_2_1_3) shapeCasts_S2x2048x16x64_S4096x1024) bitsLt_bf16_f32 := by
    show StableHlo.after hostOps2 (W4 m ρ c) (Proc.devRef .tc main_v14) = _
    after_results
    rfl
  rw [V9_v14, e]
  refine Eq.trans (truncf_apply _ bitsLt_bf16_f32 _) ?_
  -- row (b·2048 + s), column f sits at row-major position ((b·2048 + s)·16 + f / 64)·64 + f % 64 of the four-axis array
  refine (shapeCast_apply _ shapeCasts_S2x2048x16x64_S4096x1024 (ix2 (rowOf b s) f) (ix4 b s (headOf f) (laneOf f)) ?_).trans ?_
  · rewrite [Shape.rowMajor_val_four, Shape.rowMajor_val_two]
    have hf : f.val < 1024 := f.isLt
    show ((b.val * 2048 + s.val) * 16 + f.val / 64) * 64 + f.val % 64 = (b.val * 2048 + s.val) * 1024 + f.val
    omega
  -- the row axis and the head axis change places
  refine (transpose_apply [0, 2, 1, 3] _ transposes_S2x16x2048x64_S2x2048x16x64_0_2_1_3 (ix4 b s (headOf f) (laneOf f))
    (ix4 b (headOf f) s (laneOf f)) (fun a => match a with
      | ⟨0, _⟩ => rfl
      | ⟨1, _⟩ => rfl
      | ⟨2, _⟩ => rfl
      | ⟨3, _⟩ => rfl)).trans ?_
  -- batch entry b, head h is slice b·16 + h
  exact shapeCast_apply _ shapeCasts_S32x2048x64_S2x16x2048x64 (ix4 b (headOf f) s (laneOf f))
    (ix3 (bhOf b (headOf f)) s (laneOf f)) (by
      rewrite [Shape.rowMajor_val_three, Shape.rowMajor_val_four]
      show ((b.val * 16 + f.val / 64) * 2048 + s.val) * 64 + f.val % 64
        = ((b.val * 16 + f.val / 64) * 2048 + s.val) * 64 + f.val % 64
      rfl)

/-- The padded second weight matrix is written two stretches before the last call and not touched again. -/
private theorem V9_v17 (c : Dev nD) : V9 m ρ c main_v17 = W7 m ρ c (Proc.devRef .tc main_v17) :=
  calc W9 m ρ c (Proc.devRef .tc main_v17)
    _ = W8 m ρ c (Proc.devRef .tc main_v17) :=
        StableHlo.after_of_forall_not_mem (b := Proc.devRef .tc main_v17) _ _ (by unwritten hostOps2_4)
    _ = W7 m ρ c (Proc.devRef .tc main_v17) :=
        StableHlo.after_of_forall_not_mem (b := Proc.devRef .tc main_v17) _ _ (by unwritten hostOps2_3)

theorem v17_apply (c : Dev nD) (f : Fin 1024) (k : Fin 1000) :
    V9 m ρ c main_v17 (ix2 f (c1024 k)) = m ((c : Thread nD τ).loc main_arg3) (ix2 k f) := by
  have e : (W7 m ρ c (Proc.devRef .tc main_v17) : S1024x1024.Idx → EReal)
      = truncf (F := Ideal) .bf16 (W6 m ρ c (Proc.devRef .tc main_v16) : S1024x1024.Idx → EReal) bitsLt_bf16_f32 := by
    show StableHlo.after hostOps2_2 (W6 m ρ c) (Proc.devRef .tc main_v17) = _
    after_results
  have e2 : (W6 m ρ c (Proc.devRef .tc main_v16) : S1024x1024.Idx → EReal)
      = pad S1024x1024 ![0, 0] ![0, 24] ![0, 0] (W5 m ρ c (Proc.devRef .tc main_v15) : S1024x1000.Idx → EReal)
          (sitofp (F := Ideal) .f32 (constantI S_ 32 0#32)) pads_S1024x1000_S1024x1024_000_0240 h_S_ := by
    show StableHlo.after hostOps2_1 (W5 m ρ c) (Proc.devRef .tc main_v16) = _
    after_results
    rfl
  have e3 : (W5 m ρ c (Proc.devRef .tc main_v15) : S1024x1000.Idx → EReal)
      = transpose S1024x1000 [1, 0] (W4 m ρ c (Proc.devRef .tc main_arg3) : S1000x1024.Idx → EReal)
          transposes_S1000x1024_S1024x1000_1_0 := by
    show StableHlo.after hostOps2 (W4 m ρ c) (Proc.devRef .tc main_v15) = _
    after_results
  rw [V9_v17, e, e2, e3, W4_arg3]
  refine Eq.trans (truncf_apply _ bitsLt_bf16_f32 _) ?_
  -- column k < 1000 lies inside the unpadded matrix
  refine (pad_apply_of_inside ![0, 0] ![0, 24] ![0, 0] _ _ pads_S1024x1000_S1024x1024_000_0240 h_S_ (ix2 f (c1024 k)) (ix2 f k)
    (fun a => match a with
      | ⟨0, _⟩ => by show f.val = 0 + f.val * (0 + 1); omega
      | ⟨1, _⟩ => by show k.val = 0 + k.val * (0 + 1); omega)).trans ?_
  exact transpose_apply [1, 0] _ transposes_S1000x1024_S1024x1000_1_0 (ix2 f k) (ix2 k f) (fun a => match a with
    | ⟨0, _⟩ => rfl
    | ⟨1, _⟩ => rfl)

/-- The second bias is an argument: the three stretches after the second call that come before its padding do not
    write it either. -/
private theorem W7_arg4 (c : Dev nD) : W7 m ρ c (Proc.devRef .tc main_arg4) = m ((c : Thread nD τ).loc main_arg4) :=
  calc W7 m ρ c (Proc.devRef .tc main_arg4)
    _ = W6 m ρ c (Proc.devRef .tc main_arg4) :=
        StableHlo.after_of_forall_not_mem (b := Proc.devRef .tc main_arg4) _ _ (by unwritten hostOps2_2)
    _ = W5 m ρ c (Proc.devRef .tc main_arg4) :=
        StableHlo.after_of_forall_not_mem (b := Proc.devRef .tc main_arg4) _ _ (by unwritten hostOps2_1)
    _ = W4 m ρ c (Proc.devRef .tc main_arg4) :=
        StableHlo.after_of_forall_not_mem (b := Proc.devRef .tc main_arg4) _ _ (by unwritten hostOps2)
    _ = m ((c : Thread nD τ).loc main_arg4) := W4_arg4 m ρ c

theorem v19_apply (c : Dev nD) (k : Fin 1000) :
    V9 m ρ c main_v19 (ix2 (0 : Fin 1) (c1024 k)) = m ((c : Thread nD τ).loc main_arg4) (ix1 k) := by
  have e : (V9 m ρ c main_v19 : S1x1024.Idx → EReal)
      = shapeCast S1x1024 (W8 m ρ c (Proc.devRef .tc main_v18) : S1024.Idx → EReal) shapeCasts_S1024_S1x1024 := by
    show StableHlo.after hostOps2_4 (W8 m ρ c) (Proc.devRef .tc main_v19) = _
    after_results
    rfl
  have e2 : (W8 m ρ c (Proc.devRef .tc main_v18) : S1024.Idx → EReal)
      = pad S1024 ![0] ![24] ![0] (W7 m ρ c (Proc.devRef .tc main_arg4) : S1000.Idx → EReal)
          (sitofp (F := Ideal) .f32 (constantI S_ 32 0#32)) pads_S1000_S1024_0240 h_S_ := by
    show StableHlo.after hostOps2_3 (W7 m ρ c) (Proc.devRef .tc main_v18) = _
    after_results
    rfl
  rw [e, e2, W7_arg4]
  -- the one row's column k is entry k of the padded vector, and k < 1000 lies inside the unpadded one
  refine (shapeCast_apply _ shapeCasts_S1024_S1x1024 (ix2 (0 : Fin 1) (c1024 k)) (ix1 (c1024 k)) (by
    rewrite [Shape.rowMajor_val_one, Shape.rowMajor_val_two]
    show k.val = 0 * 1024 + k.val
    omega)).trans ?_
  exact pad_apply_of_inside ![0] ![24] ![0] _ _ pads_S1000_S1024_0240 h_S_ (ix1 (c1024 k)) (ix1 k)
    (fun a => match a with
      | ⟨0, _⟩ => by show k.val = 0 + k.val * (0 + 1); omega)

theorem v22_apply (c : Dev nD) (b : Fin 2) (s : Fin 2048) (k : Fin 1000) :
    W11 m ρ c (Proc.devRef .tc main_v22) (ix3 b s k) = W10 m ρ c (Proc.devRef .tc main_v20) (ix2 (rowOf b s) (c1024 k)) := by
  have e : (W11 m ρ c (Proc.devRef .tc main_v22) : S2x2048x1000.Idx → EReal)
      = shapeCast S2x2048x1000 (extractStridedSlice S4096x1000 ![0, 0]
          (W10 m ρ c (Proc.devRef .tc main_v20) : S4096x1024.Idx → EReal) slices_S4096x1024_S4096x1000_0_0)
          shapeCasts_S4096x1000_S2x2048x1000 := by
    show StableHlo.after hostOps3 (W10 m ρ c) (Proc.devRef .tc main_v22) = _
    after_results
    rfl
  rw [e]
  -- row-major position (b·2048 + s)·1000 + k on both sides of the unflattening; the slice starts at the origin
  refine (shapeCast_apply _ shapeCasts_S4096x1000_S2x2048x1000 (ix3 b s k) (ix2 (rowOf b s) k) ?_).trans ?_
  · rewrite [Shape.rowMajor_val_two, Shape.rowMajor_val_three]
    show (b.val * 2048 + s.val) * 1000 + k.val = (b.val * 2048 + s.val) * 1000 + k.val
    rfl
  · exact extractStridedSlice_apply _ _ slices_S4096x1024_S4096x1000_0_0 (ix2 (rowOf b s) k) (ix2 (rowOf b s) (c1024 k))
      (fun a => match a with
        | ⟨0, _⟩ => by show b.val * 2048 + s.val = 0 + (b.val * 2048 + s.val); omega
        | ⟨1, _⟩ => by show k.val = 0 + k.val; omega)

end Cert.KernelIdeal.KVal

end
-- ==== Proof.KValue.lean ====
/-
  The idealized kernel's result as one function of the five argument arrays: the three calls' outputs chained through
  the host operations between them. At batch entry b, row s, class k it is the whole map with the small product PᵀP
  formed first.
-/
import proofs.«123691_j8297876815995_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«123691_j8297876815995_1_alg».proof.Proof.Spec
import proofs.«123691_j8297876815995_1_alg».proof.Proof.KReg0
import proofs.«123691_j8297876815995_1_alg».proof.Proof.KReg1
import proofs.«123691_j8297876815995_1_alg».proof.Proof.KReg2
import proofs.«123691_j8297876815995_1_alg».proof.Proof.KHostA
import proofs.«123691_j8297876815995_1_alg».proof.Proof.KHostB
set_option maxRecDepth 16384

noncomputable section

namespace Cert.KernelIdeal.KVal

open Cert.KernelIdeal Cert.KernelIdeal.Gen Idealize.ShloMosaic Idealize.ShloMosaic.TcCoe Idealize.SL.Sem Idealize.ShloMosaic.ValueIdx
open Idealize.ShloMosaic.Pipeline (Dat)

open LinAttn

variable (m : (ℓ : Loc nD τ sig) → Buf (Elt Ideal) ℓ) (ρ : Dev nD → PrngReg)

/-- The first layer's output array, the attention call's input and output arrays, the second layer's output array,
    each under the name of the boundary contents that holds it. -/
theorem v5_eq (c : Dev nD) : W2 m ρ c (Proc.devRef .tc main_v5) = arrO0 (V1 m ρ) c := W2_arr m ρ c 3
theorem v10_eq (c : Dev nD) : W4 m ρ c (Proc.devRef .tc main_v10) = arrO1 (V3 m ρ) c := W4_arr m ρ c 1
theorem v20_eq (c : Dev nD) : W10 m ρ c (Proc.devRef .tc main_v20) = arrO2 (V9 m ρ) c := W10_arr m ρ c 3

/-- The five argument arrays by coordinates. -/
abbrev argX (c : Dev nD) : Fin 2 → Fin 2048 → Fin 1024 → EReal := fun b s l => m ((c : Thread nD τ).loc main_arg0) (ix3 b s l)
abbrev argWin (c : Dev nD) : Fin 1024 → Fin 1024 → EReal := fun g l => m ((c : Thread nD τ).loc main_arg1) (ix2 g l)
abbrev argBin (c : Dev nD) : Fin 1024 → EReal := fun g => m ((c : Thread nD τ).loc main_arg2) (ix1 g)
abbrev argWout (c : Dev nD) : Fin 1000 → Fin 1024 → EReal := fun k f => m ((c : Thread nD τ).loc main_arg3) (ix2 k f)
abbrev argBout (c : Dev nD) : Fin 1000 → EReal := fun k => m ((c : Thread nD τ).loc main_arg4) (ix1 k)

/-- What the attention call is entered with: slice b·16 + h, row s, lane d holds row s, lane d of head h of the first
    dense layer of batch entry b. -/
theorem p_apply (c : Dev nD) (b : Fin 2) (h : Fin 16) (s : Fin 2048) (d : Fin 64) :
    arrP1 (V3 m ρ) c (ix3 (bhOf b h) s d) = headRows (argX m c b) (argWin m c) (argBin m c) h s d := by
  show V3 m ρ c main_v9 (ix3 (bhOf b h) s d) = _
  rw [v9_apply, v5_eq, final0]
  unfold headRows dense
  congr 1
  · exact Finset.sum_congr rfl fun l _ =>
      congrArg₂ (· * ·) (v1_apply m ρ c b s l) (v3_apply m ρ c l (hd h d))
  · exact v4_apply m ρ c (hd h d)

/-- What the attention call leaves: at slice b·16 + h the small-product-first attention of that head. -/
theorem vals_apply (c : Dev nD) (b : Fin 2) (h : Fin 16) (q : Fin 2048) (d : Fin 64) :
    W4 m ρ c (Proc.devRef .tc main_v10) (ix3 (bhOf b h) q d)
      = attnK (headRows (argX m c b) (argWin m c) (argBin m c) h) (Ideal.ofBits .f32 0x3D000000#32) q d := by
  rw [v10_eq, final1]
  unfold attnK
  congr 1
  exact Finset.sum_congr rfl fun d₁ _ =>
    congrArg₂ (· * ·) (p_apply m ρ c b h q d₁)
      (Finset.sum_congr rfl fun s' _ => congrArg₂ (· * ·) (p_apply m ρ c b h s' d₁) (p_apply m ρ c b h s' d))

theorem result_apply (c : Dev nD) (b : Fin 2) (s : Fin 2048) (k : Fin 1000) :
    W11 m ρ c (Proc.devRef .tc main_v22) (ix3 b s k)
      = spec attnK (argX m c) (argWin m c) (argBin m c) (argWout m c) (argBout m c)
          (Ideal.ofBits .f32 0x3D000000#32) b s k := by
  rw [v22_apply, v20_eq, final2]
  unfold spec dense
  congr 1
  · exact Finset.sum_congr rfl fun f _ =>
      congrArg₂ (· * ·) ((v14_apply m ρ c b s f).trans (vals_apply m ρ c b (headOf f) s (laneOf f))) (v17_apply m ρ c f k)
  · exact v19_apply m ρ c k

end Cert.KernelIdeal.KVal

end
-- ==== Proof.RefValue.lean ====
/-
  The reference's result, read at batch entry b, row s, class c, is the whole map with the scores formed first:
  its four products are read as sums over the contracted coordinate, its reshapes and transposes as re-indexings
  (column h·64 + d of the 1024-wide embedding is lane d of head h), its two bias broadcasts as the bias entry.
-/
import proofs.«123691_j8297876815995_1_alg».proof.Proof.Gen.ReferenceIdeal.Read
import proofs.«123691_j8297876815995_1_alg».proof.Proof.Spec
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx

/-- The first dense layer's output at batch entry `b`, row `s`, column `g`. -/
theorem v3_at (x0 : (⟨S2x2048x1024, .f32⟩ : BufTy).Contents (Elt Ideal)) (x1 : (⟨S1024x1024, .f32⟩ : BufTy).Contents (Elt Ideal))
    (x2 : (⟨S1024, .f32⟩ : BufTy).Contents (Elt Ideal)) (b : Fin 2) (s : Fin 2048) (g : Fin 1024) :
    val_main_v3 (F := Ideal) x0 x1 x2 (ix3 b s g)
      = LinAttn.dense (fun s l => x0 (ix3 b s l)) (fun g l => x1 (ix2 g l)) (fun g => x2 (ix1 g)) s g := by
  rw [val_main_v3_apply, val_main_v0_apply, val_main_v2_apply, val_main_v1_apply]
  unfold LinAttn.dense
  have e1 : ∀ l : Fin 1024, lidx_main_v0 (ix3 b s g) l = ix3 b s l := fun l => funext fun a => by
    match a with
    | ⟨0, _⟩ => rfl
    | ⟨1, _⟩ => rfl
    | ⟨2, _⟩ => rfl
  have e2 : ∀ l : Fin 1024, ridx_main_v0 (ix3 b s g) l = ix2 g l := fun l => funext fun a => by
    match a with
    | ⟨0, _⟩ => rfl
    | ⟨1, _⟩ => rfl
  have e3 : idx_main_v1 (idx_main_v2 (ix3 b s g)) = ix1 g := funext fun a => by
    match a with
    | ⟨0, _⟩ => rfl
  rw [e3]
  simp only [e1, e2]
  rfl

/-- The projected rows of one head: the transposed, reshaped first layer at batch entry `b`, head `h`, row `s`, lane `d`
    is the first layer at row `s`, column `h·64 + d`. -/
theorem v5_at (x0 : (⟨S2x2048x1024, .f32⟩ : BufTy).Contents (Elt Ideal)) (x1 : (⟨S1024x1024, .f32⟩ : BufTy).Contents (Elt Ideal))
    (x2 : (⟨S1024, .f32⟩ : BufTy).Contents (Elt Ideal)) (b : Fin 2) (h : Fin 16) (s : Fin 2048) (d : Fin 64) :
    val_main_v5 (F := Ideal) x0 x1 x2 (ix4 b h s d)
      = LinAttn.headRows (fun s l => x0 (ix3 b s l)) (fun g l => x1 (ix2 g l)) (fun g => x2 (ix1 g)) h s d := by
  rw [val_main_v5_apply, val_main_v4_apply]
  have e : idx_main_v4 (idx_main_v5 (ix4 b h s d)) = ix3 b s (LinAttn.hd h d) := funext fun a => Fin.ext (by
    have hb := b.isLt; have hh := h.isLt; have hs := s.isLt; have hd := d.isLt
    match a with
    | ⟨0, _⟩ => show (((b.val * 2048 + s.val) * 16 + h.val) * 64 + d.val) / 2097152 = b.val; omega
    | ⟨1, _⟩ => show (((b.val * 2048 + s.val) * 16 + h.val) * 64 + d.val) / 1024 % 2048 = s.val; omega
    | ⟨2, _⟩ => show (((b.val * 2048 + s.val) * 16 + h.val) * 64 + d.val) % 1024 = h.val * 64 + d.val; omega)
  rw [e, v3_at]
  rfl

/-- The scaled scores of one head: row `q` against key `k`. -/
theorem v8_at (x0 : (⟨S2x2048x1024, .f32⟩ : BufTy).Contents (Elt Ideal)) (x1 : (⟨S1024x1024, .f32⟩ : BufTy).Contents (Elt Ideal))
    (x2 : (⟨S1024, .f32⟩ : BufTy).Contents (Elt Ideal)) (b : Fin 2) (h : Fin 16) (q k : Fin 2048) :
    val_main_v8 (F := Ideal) x0 x1 x2 (ix4 b h q k)
      = (∑ d₁ : Fin 64, LinAttn.headRows (fun s l => x0 (ix3 b s l)) (fun g l => x1 (ix2 g l)) (fun g => x2 (ix1 g)) h q d₁
            * LinAttn.headRows (fun s l => x0 (ix3 b s l)) (fun g l => x1 (ix2 g l)) (fun g => x2 (ix1 g)) h k d₁)
          * Ideal.ofBits .f32 0x3D000000#32 := by
  rw [val_main_v8_apply, val_main_v7_apply, val_main_cst_apply, val_main_v6_apply]
  have e1 : ∀ d₁ : Fin 64, lidx_main_v6 (ix4 b h q k) d₁ = ix4 b h q d₁ := fun d₁ => funext fun a => by
    match a with
    | ⟨0, _⟩ => rfl
    | ⟨1, _⟩ => rfl
    | ⟨2, _⟩ => rfl
    | ⟨3, _⟩ => rfl
  have e2 : ∀ d₁ : Fin 64, ridx_main_v6 (ix4 b h q k) d₁ = ix4 b h k d₁ := fun d₁ => funext fun a => by
    match a with
    | ⟨0, _⟩ => rfl
    | ⟨1, _⟩ => rfl
    | ⟨2, _⟩ => rfl
    | ⟨3, _⟩ => rfl
  simp only [e1, e2, v5_at]
  rfl

/-- One head's attention value, the scores formed first. -/
theorem v9_at (x0 : (⟨S2x2048x1024, .f32⟩ : BufTy).Contents (Elt Ideal)) (x1 : (⟨S1024x1024, .f32⟩ : BufTy).Contents (Elt Ideal))
    (x2 : (⟨S1024, .f32⟩ : BufTy).Contents (Elt Ideal)) (b : Fin 2) (h : Fin 16) (q : Fin 2048) (d : Fin 64) :
    val_main_v9 (F := Ideal) x0 x1 x2 (ix4 b h q d)
      = LinAttn.attnR (LinAttn.headRows (fun s l => x0 (ix3 b s l)) (fun g l => x1 (ix2 g l)) (fun g => x2 (ix1 g)) h)
          (Ideal.ofBits .f32 0x3D000000#32) q d := by
  rw [val_main_v9_apply]
  have e1 : ∀ k : Fin 2048, lidx_main_v9 (ix4 b h q d) k = ix4 b h q k := fun k => funext fun a => by
    match a with
    | ⟨0, _⟩ => rfl
    | ⟨1, _⟩ => rfl
    | ⟨2, _⟩ => rfl
    | ⟨3, _⟩ => rfl
  have e2 : ∀ k : Fin 2048, ridx_main_v9 (ix4 b h q d) k = ix4 b h k d := fun k => funext fun a => by
    match a with
    | ⟨0, _⟩ => rfl
    | ⟨1, _⟩ => rfl
    | ⟨2, _⟩ => rfl
    | ⟨3, _⟩ => rfl
  simp only [e1, e2, v8_at, v5_at]
  rfl

/-- The heads laid side by side again: column `f` of the attention output is lane `f % 64` of head `f / 64`. -/
theorem v11_at (x0 : (⟨S2x2048x1024, .f32⟩ : BufTy).Contents (Elt Ideal)) (x1 : (⟨S1024x1024, .f32⟩ : BufTy).Contents (Elt Ideal))
    (x2 : (⟨S1024, .f32⟩ : BufTy).Contents (Elt Ideal)) (b : Fin 2) (s : Fin 2048) (f : Fin 1024) :
    val_main_v11 (F := Ideal) x0 x1 x2 (ix3 b s f)
      = LinAttn.attnR (LinAttn.headRows (fun s l => x0 (ix3 b s l)) (fun g l => x1 (ix2 g l)) (fun g => x2 (ix1 g)) (LinAttn.headOf f))
          (Ideal.ofBits .f32 0x3D000000#32) s (LinAttn.laneOf f) := by
  rw [val_main_v11_apply, val_main_v10_apply]
  have e : idx_main_v10 (idx_main_v11 (ix3 b s f)) = ix4 b (LinAttn.headOf f) s (LinAttn.laneOf f) := funext fun a => Fin.ext (by
    have hb := b.isLt; have hs := s.isLt; have hf := f.isLt
    match a with
    | ⟨0, _⟩ => show ((b.val * 2048 + s.val) * 1024 + f.val) / 2097152 = b.val; omega
    | ⟨1, _⟩ => show ((b.val * 2048 + s.val) * 1024 + f.val) / 64 % 16 = f.val / 64; omega
    | ⟨2, _⟩ => show ((b.val * 2048 + s.val) * 1024 + f.val) / 1024 % 2048 = s.val; omega
    | ⟨3, _⟩ => show ((b.val * 2048 + s.val) * 1024 + f.val) % 64 = f.val % 64; omega)
  rw [e, v9_at]

theorem result_apply (x0 : (⟨S2x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1000x1024, .f32⟩ : BufTy).Contents (Elt Ideal))
    (x4 : (⟨S1000, .f32⟩ : BufTy).Contents (Elt Ideal)) (b : Fin 2) (s : Fin 2048) (c : Fin 1000) :
    val_main_v15 (F := Ideal) x0 x1 x2 x3 x4 (ix3 b s c)
      = LinAttn.spec LinAttn.attnR (fun b s l => x0 (ix3 b s l)) (fun g l => x1 (ix2 g l)) (fun g => x2 (ix1 g))
          (fun c f => x3 (ix2 c f)) (fun c => x4 (ix1 c)) (Ideal.ofBits .f32 0x3D000000#32) b s c := by
  unfold LinAttn.spec LinAttn.dense
  rw [val_main_v15_apply, val_main_v12_apply, val_main_v14_apply, val_main_v13_apply]
  have e1 : ∀ f : Fin 1024, lidx_main_v12 (ix3 b s c) f = ix3 b s f := fun f => funext fun a => by
    match a with
    | ⟨0, _⟩ => rfl
    | ⟨1, _⟩ => rfl
    | ⟨2, _⟩ => rfl
  have e2 : ∀ f : Fin 1024, ridx_main_v12 (ix3 b s c) f = ix2 c f := fun f => funext fun a => by
    match a with
    | ⟨0, _⟩ => rfl
    | ⟨1, _⟩ => rfl
  have e3 : idx_main_v13 (idx_main_v14 (ix3 b s c)) = ix1 c := funext fun a => by
    match a with
    | ⟨0, _⟩ => rfl
  rw [e3]
  simp only [e1, e2, v11_at]
  rfl

end Cert.ReferenceIdeal.RefValue

end
-- ==== Proof.Bridge.lean ====
/-
  The two associations of softmax-free attention agree on real entries.

  For a matrix P of real numbers and a real scale sc,
    (Σ_d₁ P(q, d₁)·(Σ_s P(s, d₁)·P(s, d)))·sc  =  Σ_k ((Σ_d₁ P(q, d₁)·P(k, d₁))·sc)·P(k, d):
  both are Σ_d₁ Σ_k P(q, d₁)·P(k, d₁)·P(k, d)·sc after distributing, exchanging the two sums and reordering the
  factors. On the extended reals distributing a factor over a sum can fail at an infinity, so the law is proved on the
  reals and carried over through the coercion, which commutes with sums and products.
-/
import proofs.«123691_j8297876815995_1_alg».proof.Proof.Spec
import Mathlib.Data.EReal.Basic
import Mathlib.Algebra.BigOperators.Ring.Finset
import Mathlib.Tactic.Ring

noncomputable section

namespace LinAttn

/-- The coercion of the reals into the extended reals commutes with finite sums. -/
theorem coe_sum {ι : Type*} (t : Finset ι) (f : ι → ℝ) : ((∑ i ∈ t, f i : ℝ) : EReal) = ∑ i ∈ t, (f i : EReal) := by
  classical
  -- induction on the index set: the empty sum is 0 on both sides, and one more term is added on both sides
  induction t using Finset.induction_on with
  | empty => simp only [Finset.sum_empty, EReal.coe_zero]
  | insert a t ha ih => rw [Finset.sum_insert ha, Finset.sum_insert ha, EReal.coe_add, ih]

/-- A dense layer of real entries has real entries. -/
theorem dense_real {M K N : ℕ} (x : Fin M → Fin K → EReal) (W : Fin N → Fin K → EReal) (b : Fin N → EReal)
    (hx : ∀ s l, ∃ r : ℝ, x s l = (r : EReal)) (hW : ∀ g l, ∃ r : ℝ, W g l = (r : EReal)) (hb : ∀ g, ∃ r : ℝ, b g = (r : EReal))
    (s : Fin M) (g : Fin N) : ∃ r : ℝ, dense x W b s g = (r : EReal) := by
  choose xr hxr using hx
  choose Wr hWr using hW
  choose br hbr using hb
  -- the real number Σ_l x(s, l)·W(g, l) + b(g), formed from the real witnesses
  refine ⟨(∑ l : Fin K, xr s l * Wr g l) + br g, ?_⟩
  unfold dense
  rw [EReal.coe_add, coe_sum, hbr g]
  congr 1
  exact Finset.sum_congr rfl fun l _ => by rw [hxr s l, hWr g l, EReal.coe_mul]

/-- The law on the reals: distribute, exchange the two sums, reorder the factors. -/
private theorem attn_real {S D : ℕ} (P : Fin S → Fin D → ℝ) (r : ℝ) (q : Fin S) (d : Fin D) :
    (∑ d₁ : Fin D, P q d₁ * ∑ s : Fin S, P s d₁ * P s d) * r
      = ∑ k : Fin S, ((∑ d₁ : Fin D, P q d₁ * P k d₁) * r) * P k d := by
  -- left side: Σ_d₁ Σ_k P(q, d₁)·(P(k, d₁)·P(k, d))·r
  have hL : (∑ d₁ : Fin D, P q d₁ * ∑ s : Fin S, P s d₁ * P s d) * r
      = ∑ d₁ : Fin D, ∑ k : Fin S, P q d₁ * (P k d₁ * P k d) * r := by
    rw [Finset.sum_mul]
    refine Finset.sum_congr rfl fun d₁ _ => ?_
    rw [Finset.mul_sum, Finset.sum_mul]
  -- right side: Σ_k Σ_d₁ the same term
  have hR : ∑ k : Fin S, ((∑ d₁ : Fin D, P q d₁ * P k d₁) * r) * P k d
      = ∑ k : Fin S, ∑ d₁ : Fin D, P q d₁ * (P k d₁ * P k d) * r := by
    refine Finset.sum_congr rfl fun k _ => ?_
    rw [Finset.sum_mul, Finset.sum_mul]
    exact Finset.sum_congr rfl fun d₁ _ => by ring
  rw [hL, hR, Finset.sum_comm]

/-- On real entries and a real scale the two associations of the attention product agree. -/
theorem attn_eq {S D : ℕ} (P : Fin S → Fin D → EReal) (sc : EReal)
    (hP : ∀ s d, ∃ r : ℝ, P s d = (r : EReal)) (hsc : ∃ r : ℝ, sc = (r : EReal)) :
    attnK P sc = attnR P sc := by
  choose Pr hPr using hP
  obtain ⟨r, rfl⟩ := hsc
  have hPeq : P = fun s d => (Pr s d : EReal) := funext fun s => funext fun d => hPr s d
  subst hPeq
  funext q d
  unfold attnK attnR
  -- both sides are the coercion of the corresponding real expression
  simp only [← EReal.coe_mul, ← coe_sum]
  exact congrArg _ (attn_real Pr r q d)

/-- So the whole map does not depend on the association, for real inputs of the first layer and a real scale. -/
theorem spec_eq (x : Fin 2 → Fin 2048 → Fin 1024 → EReal) (Win : Fin 1024 → Fin 1024 → EReal) (bin : Fin 1024 → EReal)
    (Wout : Fin 1000 → Fin 1024 → EReal) (bout : Fin 1000 → EReal) (sc : EReal)
    (hx : ∀ b s l, ∃ r : ℝ, x b s l = (r : EReal)) (hW : ∀ g l, ∃ r : ℝ, Win g l = (r : EReal))
    (hb : ∀ g, ∃ r : ℝ, bin g = (r : EReal)) (hsc : ∃ r : ℝ, sc = (r : EReal)) :
    spec attnK x Win bin Wout bout sc = spec attnR x Win bin Wout bout sc := by
  funext b s c
  unfold spec
  -- each head's projected rows are real, so the two associations agree head by head
  have h : ∀ f : Fin 1024, attnK (headRows (x b) Win bin (headOf f)) sc = attnR (headRows (x b) Win bin (headOf f)) sc :=
    fun f => attn_eq _ sc (fun s' d => dense_real (x b) Win bin (hx b) hW hb s' (hd (headOf f) d)) hsc
  simp only [h]

end LinAttn

end
-- ==== Proof.Finite.lean ====
/-
  The precondition says every entry of the five argument arrays has absolute value below +∞. On the extended reals
  that makes each entry a real number: |x| < +∞ excludes +∞ and −∞ alike. The scale 1/32 (the word 0x3D000000) is a
  real number too.
-/
import proofs.«123691_j8297876815995_1_alg».proof.Pre_finite_inputs
import proofs.«123691_j8297876815995_1_alg».proof.Proof.Gen.Pre_finite_inputs
import Idealize.ShloMosaic.PureOps.Ideal.Laws
import Idealize.ShloMosaic.Lib.ReduceAll
import Idealize.ShloMosaic.Lib.ValueIdx

noncomputable section

namespace Cert.Finite

open Idealize.ShloMosaic Cert.Pre_finite_inputs

variable [Cert.Pre_finite_inputs.Facts]

/-- The word 0x7F800000 denotes +∞. -/
private theorem inf_word : Ideal.ofBits .f32 0x7F800000#32 = (⊤ : EReal) := by
  simp [Ideal.ofBits, Ideal.ieee]

/-- On one value: if the comparison |x| < +∞ holds then x is a real number. -/
private theorem real_of_abs_lt_top (x : EReal)
    (h : Ideal.cmp .olt (max x (-x)) (⊤ : EReal) = 1#1) : ∃ r : ℝ, x = (r : EReal) := by
  induction x using EReal.rec with
  | bot => simp [Ideal.cmp] at h
  | coe r => exact ⟨r, rfl⟩
  | top => simp [Ideal.cmp] at h

/-- An array for which the conjunction, over all entries, of the comparison |a| < +∞ is 1 has real entries. -/
private theorem real_of_all {s : Shape} {axes : List (Fin s.rank)} (a : FVec Ideal s .f32)
    (hb : S_.BroadcastsInDim s (![] : Fin 0 → Fin s.rank)) (hr : s.ReducesTo axes S_) (hu : 0 < S_.numel)
    (init : IVec S_ 1)
    (e : Host.reduce IntOp.andi
        (cmpf .olt (Host.absf a) (broadcastInDim s ![] hb (constant (F := Ideal) S_ .f32 0x7F800000#32)))
        init hr hu ValueIdx.ix0 = 1#1)
    (i : s.Idx) : ∃ r : ℝ, a i = (r : EReal) := by
  -- the rank-0 shape has a single index
  haveI : Subsingleton S_.Idx := ⟨fun a b => funext fun d => d.elim0⟩
  have h1 := Host.reduce_andi_all _ init hr hu ValueIdx.ix0 e i
  refine real_of_abs_lt_top (a i) ?_
  rw [← inf_word]
  exact h1

/-- If the finiteness predicate of the five arrays is all ones, every entry of every array is a real number. -/
theorem of_pre (a0 : FVec Ideal S2x2048x1024 .f32) (a1 : FVec Ideal S1024x1024 .f32) (a2 : FVec Ideal S1024 .f32)
    (a3 : FVec Ideal S1000x1024 .f32) (a4 : FVec Ideal S1000 .f32)
    (h : Cert.Pre_finite_inputs.fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  have h0 := congrFun h ValueIdx.ix0
  dsimp only [Cert.Pre_finite_inputs.fn, Cert.Pre_finite_inputs.fn_part1] at h0
  obtain ⟨h0123, h4⟩ := IntOp.andi_eq_one.1 h0
  obtain ⟨h012, h3⟩ := IntOp.andi_eq_one.1 h0123
  obtain ⟨h01, h2⟩ := IntOp.andi_eq_one.1 h012
  obtain ⟨h0', h1⟩ := IntOp.andi_eq_one.1 h01
  exact ⟨real_of_all a0 _ _ _ _ h0', real_of_all a1 _ _ _ _ h1, real_of_all a2 _ _ _ _ h2,
    real_of_all a3 _ _ _ _ h3, real_of_all a4 _ _ _ _ h4⟩

/-- The scale's word denotes a real number. -/
theorem scale_real : ∃ r : ℝ, Ideal.ofBits .f32 0x3D000000#32 = (r : EReal) := by
  refine ⟨1 / 32, ?_⟩
  simp [Ideal.ofBits, Ideal.ieee, -EReal.coe_mul]
  norm_num

end Cert.Finite

end
-- ==== Proof.lean ====
/-
  The kernel computes softmax-free attention between two dense layers in three calls: x·W_inᵀ + b_in; per batch entry
  and head, P·(PᵀP) scaled by 1/32; and the merged heads times W_outᵀ (its 1000 columns padded to 1024 with zeros that
  are sliced away again) plus b_out. The reference computes (P·Pᵀ scaled)·P instead. On the extended reals the two
  associations of the triple product are different terms; they are equal wherever the entries of P and the scale are
  real numbers, and the precondition makes every input entry real, hence every entry of P.

  The three frames are the generated ones (the reference's is its generated run with the result dropped); the
  idealization rewrote nothing, so `preserves` is trivial; `algebraic` sets the kernel's run, re-posted with the
  result's buffer named, beside the reference's generated run, reads both results at (b, s, k) as the whole map
  `LinAttn.spec` with the one and the other association, and joins them by `LinAttn.spec_eq`.
-/
import proofs.«123691_j8297876815995_1_alg».proof.Defs
import proofs.«123691_j8297876815995_1_alg».proof.Proof.Gen.Kernel
import proofs.«123691_j8297876815995_1_alg».proof.Proof.Gen.Kernel.Skeleton
import proofs.«123691_j8297876815995_1_alg».proof.Proof.Gen.Kernel.Launch
import proofs.«123691_j8297876815995_1_alg».proof.Proof.Gen.Kernel.Points
import proofs.«123691_j8297876815995_1_alg».proof.Proof.Gen.Kernel.Frame
import proofs.«123691_j8297876815995_1_alg».proof.Proof.Gen.KernelIdeal
import proofs.«123691_j8297876815995_1_alg».proof.Proof.Gen.KernelIdeal.Skeleton
import proofs.«123691_j8297876815995_1_alg».proof.Proof.Gen.KernelIdeal.Launch
import proofs.«123691_j8297876815995_1_alg».proof.Proof.Gen.KernelIdeal.Points
import proofs.«123691_j8297876815995_1_alg».proof.Proof.Gen.KernelIdeal.Frame
import proofs.«123691_j8297876815995_1_alg».proof.Proof.Gen.ReferenceIdeal
import proofs.«123691_j8297876815995_1_alg».proof.Proof.Gen.Pre_finite_inputs
import proofs.«123691_j8297876815995_1_alg».proof.Proof.Gen.ReferenceIdeal.Run
import proofs.«123691_j8297876815995_1_alg».proof.Proof.Gen.ReferenceIdeal.Read
import proofs.«123691_j8297876815995_1_alg».proof.Proof.KRun
import proofs.«123691_j8297876815995_1_alg».proof.Proof.KValue
import proofs.«123691_j8297876815995_1_alg».proof.Proof.RefValue
import proofs.«123691_j8297876815995_1_alg».proof.Proof.Bridge
import proofs.«123691_j8297876815995_1_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories that agree on the five arguments, of which the precondition holds, both programs end with the same
    result: at (b, s, k) the kernel's is the whole map with PᵀP formed first, the reference's the whole map with the
    scores formed first, and on the real entries the precondition leaves the two are equal. -/
theorem algebraic : Cert.algebraic_KernelIdeal_ReferenceIdeal := by
  intro m ρ m' ρ' hpre hagree
  refine ⟨fun c => Cert.KernelIdeal.Gen.W11 m ρ c (Proc.devRef .tc Cert.KernelIdeal.main_v22),
    Cert.KernelIdeal.KVal.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4⟩ := hagree c
  rw [Cert.ReferenceIdeal.Read.val_main_v15_eq, h0, h1, h2, h3, h4]
  funext i
  obtain ⟨b, s, k, rfl⟩ : ∃ (b : Fin 2) (s : Fin 2048) (k : Fin 1000), i = ix3 b s k := ⟨i 0, i 1, i 2, eq_ix3 i⟩
  obtain ⟨f0, f1, f2, -, -⟩ := Cert.Finite.of_pre _ _ _ _ _ (hpre c)
  refine (Cert.ReferenceIdeal.RefValue.result_apply _ _ _ _ _ b s k).trans ?_
  refine Eq.trans ?_ (Cert.KernelIdeal.KVal.result_apply m ρ c b s k).symm
  exact (congrFun (congrFun (congrFun (LinAttn.spec_eq _ _ _ _ _ _ (fun b s l => f0 _) (fun g l => f1 _) (fun g => f2 _)
    Cert.Finite.scale_real) b) s) k).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
